-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x8 : S_.BroadcastsInDim S768x8 (![] : Fin 0 → Fin S768x8.rank)
  reducesTo_S768x8_S_d0_1 : S768x8.ReducesTo [0, 1] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_

variable [Facts]

def fn_part1 {F : FTy → Type} [FloatOps F] (main_v13 : IVec S_ 1) (main_v16 : IVec S8x768 1) : IVec S_ 1 :=
  let main_c_5 : IVec S_ 1 := constantI S_ 1 1#1
  let main_v17 : IVec S_ 1 := (fun x v => Host.reduce IntOp.andi x v reducesTo_S8x768_S_d0_1 h_S_) main_v16 main_c_5
  let main_v18 : IVec S_ 1 := andi main_v13 main_v17
  main_v18

def fn {F : FTy → Type} [FloatOps F] (main_arg0 : FVec F S8192x768 .f32) (main_arg1 : FVec F S768x8 .f32) (main_arg2 : FVec F S8x768x768 .f32) (main_arg3 : FVec F S8x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8x768x768 .f32 := Host.absf main_arg2
  let main_cst_2 : FVec F S_ .f32 := constant S_ .f32 0x7F800000#32
  let main_v10 : FVec F S8x768x768 .f32 := broadcastInDim S8x768x768 ![] bcast_S_S8x768x768 main_cst_2
  let main_v11 : IVec S8x768x768 1 := cmpf .olt main_v9 main_v10
  let main_c_3 : IVec S_ 1 := constantI S_ 1 1#1
  let main_v12 : IVec S_ 1 := (fun x v => Host.reduce IntOp.andi x v reducesTo_S8x768x768_S_d0_1_2 h_S_) main_v11 main_c_3
  let main_v13 : IVec S_ 1 := andi main_v8 main_v12
  let main_v14 : FVec F S8x768 .f32 := Host.absf main_arg3
  let main_cst_4 : FVec F S_ .f32 := constant S_ .f32 0x7F800000#32
  let main_v15 : FVec F S8x768 .f32 := broadcastInDim S8x768 ![] bcast_S_S8x768 main_cst_4
  let main_v16 : IVec S8x768 1 := cmpf .olt main_v14 main_v15
  fn_part1 (F := F) main_v13 main_v16
-- ==== Kernel.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S2048x768 : Shape := ⟨2, ![2048, 768]⟩
abbrev S2048x8 : Shape := ⟨2, ![2048, 8]⟩
abbrev S2048 : Shape := ⟨1, ![2048]⟩
abbrev S2048x1 : Shape := ⟨2, ![2048, 1]⟩
abbrev S1x768x768 : Shape := ⟨3, ![1, 768, 768]⟩
abbrev S768x768 : Shape := ⟨2, ![768, 768]⟩

abbrev nBuf : Space → Nat
  | .hbm => 5
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8x768x768, .f32⟩
  | .hbm, ⟨3, _⟩ => ⟨S8x768, .f32⟩
  | .hbm, ⟨4, _⟩ => ⟨S8192x768, .f32⟩
  | .local _ .vmem, ⟨0, _⟩ => ⟨S2048x768, .f32⟩
  | .local _ .vmem, ⟨1, _⟩ => ⟨S2048x768, .f32⟩
  | .local _ .vmem, ⟨2, _⟩ => ⟨S768x8, .f32⟩
  | .local _ .vmem, ⟨3, _⟩ => ⟨S8x768x768, .f32⟩
  | .local _ .vmem, ⟨4, _⟩ => ⟨S8x768, .f32⟩
  | .local _ .vmem, ⟨5, _⟩ => ⟨S2048x768, .f32⟩
  | .local _ .vmem, ⟨6, _⟩ => ⟨S2048x768, .f32⟩
  | .local _ .vmem, ⟨7, _⟩ => ⟨S2048x8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x768_S2048x768_0_0 : ∀ a, (![0, 0] : Fin 2 → Nat) a + S2048x768.size a ≤ S2048x768.size a
  h_S2048x768 : 0 < S2048x768.numel
  inb_S768x8_S768x8_0_0 : ∀ a, (![0, 0] : Fin 2 → Nat) a + S768x8.size a ≤ S768x8.size a
  h_S768x8 : 0 < S768x8.numel
  reduces_S2048x8_S2048 : S2048x8.Reduces [1] S2048
  shapeCasts_S2048_S2048x1 : S2048.ShapeCasts S2048x1
  broadcasts_S2048x1_S2048x8 : S2048x1.Broadcasts S2048x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x768_S8x768_0_0 : ∀ a, (![0, 0] : Fin 2 → Nat) a + S8x768.size a ≤ S8x768.size a
  h_S8x768 : 0 < S8x768.numel
  h_S1x768x768 : 0 < S1x768x768.numel
  shapeCasts_S1x768x768_S768x768 : S1x768x768.ShapeCasts S768x768
  iota_S2048x8_d1_w32 : S2048x8.Iotas .tc 32 [1]
  shapeCasts_S2048x768_S2048x768 : S2048x768.ShapeCasts S2048x768
  broadcasts_S2048x1_S2048x768 : S2048x1.Broadcasts S2048x768
  dot_S2048x768_S768x8_S2048x8_1_0_0_1_n_n_wf : DotDims.WF S2048x768 S768x8 S2048x8 [1] [0] [0] [1] [] []
  dot_S2048x8_S8x768_S2048x768_1_0_0_1_n_n_wf : DotDims.WF S2048x8 S8x768 S2048x768 [1] [0] [0] [1] [] []
  dot_S2048x768_S768x768_S2048x768_1_0_0_1_n_n_wf : DotDims.WF S2048x768 S768x768 S2048x768 [1] [0] [0] [1] [] []
  hrank0 : 0 < grid0.rank
  k0_off1_inb : ∀ i : grid0.Coords, ∀ a, (k0_off1 i) a + S1x768x768.size a ≤ S8x768x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x8.size a ≤ S768x8.size a
  hwx0_1 : ∀ i : grid0.Coords, EltTy.bits .f32 = 32 ∨ (Rect.block (s := S768x8) S768x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x768x768.size a ≤ S8x768x768.size a
  hwx0_2 : ∀ i : grid0.Coords, EltTy.bits .f32 = 32 ∨ (Rect.block (s := S8x768x768) S8x768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S8x768.size a
  hwx0_3 : ∀ i : grid0.Coords, EltTy.bits .f32 = 32 ∨ (Rect.block (s := S8x768) S8x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x768.size a ≤ S8192x768.size a
  hwx0_4 : ∀ i : grid0.Coords, EltTy.bits .f32 = 32 ∨ (Rect.block (s := S8192x768) S2048x768.size (cc0_transform_4 i) (hinb0_4 i)).WholeWords (EltTy.packing .f32)

variable [Facts₀]

def dot_S2048x768_S768x8_S2048x8_1_0_0_1_n_n : DotDims S2048x768 S768x8 S2048x8 where
  lhsContracting := [1]
  rhsContracting := [0]
  lhsNonContracting := [0]
  rhsNonContracting := [1]
  lhsBatch := []
  rhsBatch := []
  wf := dot_S2048x768_S768x8_S2048x8_1_0_0_1_n_n_wf
def dot_S2048x8_S8x768_S2048x768_1_0_0_1_n_n : DotDims S2048x8 S8x768 S2048x768 where
  lhsContracting := [1]
  rhsContracting := [0]
  lhsNonContracting := [0]
  rhsNonContracting := [1]
  lhsBatch := []
  rhsBatch := []
  wf := dot_S2048x8_S8x768_S2048x768_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩

abbrev nBuf : Space → Nat
  | .hbm => 133
  | .vmem => 0
  | .smem => 0
  | _ => 0

abbrev hbmTy0_0 (i : Nat) : BufTy := match i % 128 with
  | 0 => ⟨S8192x768, .f32⟩
  | 1 => ⟨S768x8, .f32⟩
  | 2 => ⟨S8x768x768, .f32⟩
  | 3 => ⟨S8x768, .f32⟩
  | 4 => ⟨S8192x8, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x8, .f32⟩
  | 12 => ⟨S8192x8, .f32⟩
  | 13 => ⟨S8192x8, .f32⟩
  | 14 => ⟨S_, .f32⟩
  | 15 => ⟨S8192, .f32⟩
  | 16 => ⟨S8192x1, .f32⟩
  | 17 => ⟨S8192x8, .f32⟩
  | 18 => ⟨S8192x8, .f32⟩
  | 19 => ⟨S_, .f32⟩
  | 20 => ⟨S8192x768, .f32⟩
  | 21 => ⟨S1x768x768, .f32⟩
  | 22 => ⟨S768x768, .f32⟩
  | 23 => ⟨S8192x768, .f32⟩
  | 24 => ⟨S1x768, .f32⟩
  | 25 => ⟨S768, .f32⟩
  | 26 => ⟨S1x768, .f32⟩
  | 27 => ⟨S8192x768, .f32⟩
  | 28 => ⟨S8192x768, .f32⟩
  | 29 => ⟨S8192x1, .f32⟩
  | 30 => ⟨S8192, .f32⟩
  | 31 => ⟨S8192x1, .f32⟩
  | 32 => ⟨S8192x768, .f32⟩
  | 33 => ⟨S8192x768, .f32⟩
  | 34 => ⟨S8192x768, .f32⟩
  | 35 => ⟨S1x768x768, .f32⟩
  | 36 => ⟨S768x768, .f32⟩
  | 37 => ⟨S8192x768, .f32⟩
  | 38 => ⟨S1x768, .f32⟩
  | 39 => ⟨S768, .f32⟩
  | 40 => ⟨S1x768, .f32⟩
  | 41 => ⟨S8192x768, .f32⟩
  | 42 => ⟨S8192x768, .f32⟩
  | 43 => ⟨S8192x1, .f32⟩
  | 44 => ⟨S8192, .f32⟩
  | 45 => ⟨S8192x1, .f32⟩
  | 46 => ⟨S8192x768, .f32⟩
  | 47 => ⟨S8192x768, .f32⟩
  | 48 => ⟨S8192x768, .f32⟩
  | 49 => ⟨S1x768x768, .f32⟩
  | 50 => ⟨S768x768, .f32⟩
  | 51 => ⟨S8192x768, .f32⟩
  | 52 => ⟨S1x768, .f32⟩
  | 53 => ⟨S768, .f32⟩
  | 54 => ⟨S1x768, .f32⟩
  | 55 => ⟨S8192x768, .f32⟩
  | 56 => ⟨S8192x768, .f32⟩
  | 57 => ⟨S8192x1, .f32⟩
  | 58 => ⟨S8192, .f32⟩
  | 59 => ⟨S8192x1, .f32⟩
  | 60 => ⟨S8192x768, .f32⟩
  | 61 => ⟨S8192x768, .f32⟩
  | 62 => ⟨S8192x768, .f32⟩
  | 63 => ⟨S1x768x768, .f32⟩
  | 64 => ⟨S768x768, .f32⟩
  | 65 => ⟨S8192x768, .f32⟩
  | 66 => ⟨S1x768, .f32⟩
  | 67 => ⟨S768, .f32⟩
  | 68 => ⟨S1x768, .f32⟩
  | 69 => ⟨S8192x768, .f32⟩
  | 70 => ⟨S8192x768, .f32⟩
  | 71 => ⟨S8192x1, .f32⟩
  | 72 => ⟨S8192, .f32⟩
  | 73 => ⟨S8192x1, .f32⟩
  | 74 => ⟨S8192x768, .f32⟩
  | 75 => ⟨S8192x768, .f32⟩
  | 76 => ⟨S8192x768, .f32⟩
  | 77 => ⟨S1x768x768, .f32⟩
  | 78 => ⟨S768x768, .f32⟩
  | 79 => ⟨S8192x768, .f32⟩
  | 80 => ⟨S1x768, .f32⟩
  | 81 => ⟨S768, .f32⟩
  | 82 => ⟨S1x768, .f32⟩
  | 83 => ⟨S8192x768, .f32⟩
  | 84 => ⟨S8192x768, .f32⟩
  | 85 => ⟨S8192x1, .f32⟩
  | 86 => ⟨S8192, .f32⟩
  | 87 => ⟨S8192x1, .f32⟩
  | 88 => ⟨S8192x768, .f32⟩
  | 89 => ⟨S8192x768, .f32⟩
  | 90 => ⟨S8192x768, .f32⟩
  | 91 => ⟨S1x768x768, .f32⟩
  | 92 => ⟨S768x768, .f32⟩
  | 93 => ⟨S8192x768, .f32⟩
  | 94 => ⟨S1x768, .f32⟩
  | 95 => ⟨S768, .f32⟩
  | 96 => ⟨S1x768, .f32⟩
  | 97 => ⟨S8192x768, .f32⟩
  | 98 => ⟨S8192x768, .f32⟩
  | 99 => ⟨S8192x1, .f32⟩
  | 100 => ⟨S8192, .f32⟩
  | 101 => ⟨S8192x1, .f32⟩
  | 102 => ⟨S8192x768, .f32⟩
  | 103 => ⟨S8192x768, .f32⟩
  | 104 => ⟨S8192x768, .f32⟩
  | 105 => ⟨S1x768x768, .f32⟩
  | 106 => ⟨S768x768, .f32⟩
  | 107 => ⟨S8192x768, .f32⟩
  | 108 => ⟨S1x768, .f32⟩
  | 109 => ⟨S768, .f32⟩
  | 110 => ⟨S1x768, .f32⟩
  | 111 => ⟨S8192x768, .f32⟩
  | 112 => ⟨S8192x768, .f32⟩
  | 113 => ⟨S8192x1, .f32⟩
  | 114 => ⟨S8192, .f32⟩
  | 115 => ⟨S8192x1, .f32⟩
  | 116 => ⟨S8192x768, .f32⟩
  | 117 => ⟨S8192x768, .f32⟩
  | 118 => ⟨S8192x768, .f32⟩
  | 119 => ⟨S1x768x768, .f32⟩
  | 120 => ⟨S768x768, .f32⟩
  | 121 => ⟨S8192x768, .f32⟩
  | 122 => ⟨S1x768, .f32⟩
  | 123 => ⟨S768, .f32⟩
  | 124 => ⟨S1x768, .f32⟩
  | 125 => ⟨S8192x768, .f32⟩
  | 126 => ⟨S8192x768, .f32⟩
  | 127 => ⟨S8192x1, .f32⟩
  | _ => ⟨S8192x768, .f32⟩

abbrev hbmTy0_1 (i : Nat) : BufTy := match i % 128 with
  | 0 => ⟨S8192, .f32⟩
  | 1 => ⟨S8192x1, .f32⟩
  | 2 => ⟨S8192x768, .f32⟩
  | 3 => ⟨S8192x768, .f32⟩
  | 4 => ⟨S8192x768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩

abbrev nD : Nat := 1
abbrev τ : Topo := Topo.v7x

variable {F : FTy → Type} [FloatOps F]

class Facts₀ : Prop where
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S_S8192x768 : S_.BroadcastsInDim S8192x768 (![] : Fin 0 → Fin S8192x768.rank)
  slices_S8x768x768_S1x768x768_0_0_0 : S8x768x768.Slices ![0, 0, 0] S1x768x768
  shapeCasts_S1x768x768_S768x768 : S1x768x768.ShapeCasts S768x768
  slices_S8x768_S1x768_0_0 : S8x768.Slices ![0, 0] S1x768
  shapeCasts_S1x768_S768 : S1x768.ShapeCasts S768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  slices_S8192x8_S8192x1_0_0 : S8192x8.Slices ![0, 0] S8192x1
  shapeCasts_S8192x1_S8192 : S8192x1.ShapeCasts S8192
  bcast_S8192x1_S8192x768_0_1 : S8192x1.BroadcastsInDim S8192x768 (![0, 1] : Fin 2 → Fin S8192x768.rank)
  slices_S8x768x768_S1x768x768_1_0_0 : S8x768x768.Slices ![1, 0, 0] S1x768x768
  slices_S8x768_S1x768_1_0 : S8x768.Slices ![1, 0] S1x768
  slices_S8192x8_S8192x1_0_1 : S8192x8.Slices ![0, 1] S8192x1
  slices_S8x768x768_S1x768x768_2_0_0 : S8x768x768.Slices ![2, 0, 0] S1x768x768
  slices_S8x768_S1x768_2_0 : S8x768.Slices ![2, 0] S1x768
  slices_S8192x8_S8192x1_0_2 : S8192x8.Slices ![0, 2] S8192x1
  slices_S8x768x768_S1x768x768_3_0_0 : S8x768x768.Slices ![3, 0, 0] S1x768x768
  slices_S8x768_S1x768_3_0 : S8x768.Slices ![3, 0] S1x768
  slices_S8192x8_S8192x1_0_3 : S8192x8.Slices ![0, 3] S8192x1
  slices_S8x768x768_S1x768x768_4_0_0 : S8x768x768.Slices ![4, 0, 0] S1x768x768
  slices_S8x768_S1x768_4_0 : S8x768.Slices ![4, 0] S1x768
  slices_S8192x8_S8192x1_0_4 : S8192x8.Slices ![0, 4] S8192x1
  slices_S8x768x768_S1x768x768_5_0_0 : S8x768x768.Slices ![5, 0, 0] S1x768x768
  slices_S8x768_S1x768_5_0 : S8x768.Slices ![5, 0] S1x768
  slices_S8192x8_S8192x1_0_5 : S8192x8.Slices ![0, 5] S8192x1
  slices_S8x768x768_S1x768x768_6_0_0 : S8x768x768.Slices ![6, 0, 0] S1x768x768
  slices_S8x768_S1x768_6_0 : S8x768.Slices ![6, 0] S1x768
  slices_S8192x8_S8192x1_0_6 : S8192x8.Slices ![0, 6] S8192x1
  slices_S8x768x768_S1x768x768_7_0_0 : S8x768x768.Slices ![7, 0, 0] S1x768x768
  slices_S8x768_S1x768_7_0 : S8x768.Slices ![7, 0] S1x768
  slices_S8192x8_S8192x1_0_7 : S8192x8.Slices ![0, 7] S8192x1
  dot_S8192x768_S768x8_S8192x8_1_0_0_1_n_n_wf : DotDims.WF S8192x768 S768x8 S8192x8 [1] [0] [0] [1] [] []
  dot_S8192x768_S768x768_S8192x768_1_0_0_1_n_n_wf : DotDims.WF S8192x768 S768x768 S8192x768 [1] [0] [0] [1] [] []

variable [Facts₀]

def dot_S8192x768_S768x8_S8192x8_1_0_0_1_n_n : DotDims S8192x768 S768x8 S8192x8 where
  lhsContracting := [1]
  rhsContracting := [0]
  lhsNonContracting := [0]
  rhsNonContracting := [1]
  lhsBatch := []
  rhsBatch := []
  wf := dot_S8192x768_S768x8_S8192x8_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf

class Facts : Prop extends Facts₀ where

variable [Facts]
-- ==== Proof.MoeReads.lean ====
/-
  The grid and the blocks.  The grid is 4 token blocks by 8 expert steps, the expert step innermost, so point `t` (of 32)
  works on token block `t / 8` at expert step `t % 8`.  The token window's block at `t` is rows `2048·(t/8) …` of the
  input array; the gate weights, the expert weights and the biases are resident: their one block is the whole array.
  The output window's block at `t` is rows `2048·(t/8) …` of the result, written back after step 7.
-/
import proofs.«101478_g6734508720218_cont_9to1c4b_726_15_alg».proof.Proof.Gen.KernelIdeal.Value
import Idealize.ShloMosaic.Lib.ValueIdx

noncomputable section

open Idealize.ShloMosaic Idealize.ShloMosaic.TcCoe Idealize.SL.Sem Idealize.ShloMosaic.ValueIdx

namespace Cert.KernelIdeal.Moe

open Cert.KernelIdeal Cert.KernelIdeal.Gen

variable (m : (ℓ : Loc nD τ sig) → Buf (Elt Ideal) ℓ)

/-- The four argument arrays on core `c`, as launched. -/
abbrev argX (c : Dev nD) : S8192x768.Idx → EReal := m ((c : Thread nD τ).loc main_arg0)
abbrev argGw (c : Dev nD) : S768x8.Idx → EReal := m ((c : Thread nD τ).loc main_arg1)
abbrev argEw (c : Dev nD) : S8x768x768.Idx → EReal := m ((c : Thread nD τ).loc main_arg2)
abbrev argEb (c : Dev nD) : S8x768.Idx → EReal := m ((c : Thread nD τ).loc main_arg3)

/-- The four input windows' blocks at point `t`, at their literal types. -/
abbrev xblk (c : Dev nD) (t : Fin cfg0.N) : Vec Ideal S2048x768 .f32 := iblk m c 0 t
abbrev gwblk (c : Dev nD) (t : Fin cfg0.N) : Vec Ideal S768x8 .f32 := iblk m c 1 t
abbrev ewblk (c : Dev nD) (t : Fin cfg0.N) : Vec Ideal S8x768x768 .f32 := iblk m c 2 t
abbrev ebblk (c : Dev nD) (t : Fin cfg0.N) : Vec Ideal S8x768 .f32 := iblk m c 3 t

/-- The index maps over the grid: the token and output windows follow the token block `t / 8`, the resident windows
    stay at block zero, and the second grid coordinate is the expert step `t % 8`. -/
theorem grid_facts : ∀ t : Fin cfg0.N,
    win0_0.index t 0 = t.val / 8 ∧ win0_0.index t 1 = 0
    ∧ win0_1.index t 0 = 0 ∧ win0_1.index t 1 = 0
    ∧ win0_2.index t 0 = 0 ∧ win0_2.index t 1 = 0 ∧ win0_2.index t 2 = 0
    ∧ win0_3.index t 0 = 0 ∧ win0_3.index t 1 = 0
    ∧ win0_4.index t 0 = t.val / 8 ∧ win0_4.index t 1 = 0
    ∧ ((grid0.coords t) 1).val = t.val % 8 :=
  (by decide +kernel : ∀ t : Fin grid0.N, _)

/-- Row `p` of token block `b`, as a row of the whole input. -/
def tokenRow (b : ℕ) (hb : b < 4) (p : Fin 2048) : Fin 8192 := ⟨2048 * b + p.val, by omega⟩

theorem blockOf_lt (t : Fin cfg0.N) : t.val / 8 < 4 := by
  have h := lt_of_lt_of_eq t.isLt (show cfg0.N = 32 from N_0); omega

/-- The token window's block at `t`, at `(p, k)`: the input at row `p` of token block `t / 8`. -/
theorem xblk_apply (c : Dev nD) (t : Fin cfg0.N) (p : Fin 2048) (k : Fin 768) :
    xblk m c t (ix2 p k) = argX m c (ix2 (tokenRow (t.val / 8) (blockOf_lt t) p) k) := by
  have hi := grid_facts t
  unfold xblk iblk
  rw [View.read_apply]
  show V m c main_arg0 _ = m ((c : Thread nD τ).loc main_arg0) _
  unfold V
  congr 1
  funext a
  apply Fin.ext
  match a with
  | ⟨0, _⟩ => show win0_0.index t 0 * 2048 + 1 * p.val = 2048 * (t.val / 8) + p.val; rw [hi.1]; omega
  | ⟨1, _⟩ => show win0_0.index t 1 * 768 + 1 * k.val = k.val; rw [hi.2.1]; omega

/-- The gate weights' block is the whole array. -/
theorem gwblk_eq (c : Dev nD) (t : Fin cfg0.N) : gwblk m c t = argGw m c := by
  have hi := grid_facts t
  funext y
  unfold gwblk iblk
  rw [View.read_apply]
  show V m c main_arg1 _ = m ((c : Thread nD τ).loc main_arg1) _
  unfold V
  congr 1
  funext a
  apply Fin.ext
  match a with
  | ⟨0, _⟩ => show win0_1.index t 0 * 768 + 1 * (y 0).val = (y 0).val; rw [hi.2.2.1]; omega
  | ⟨1, _⟩ => show win0_1.index t 1 * 8 + 1 * (y 1).val = (y 1).val; rw [hi.2.2.2.1]; omega

/-- The expert weights' block is the whole array. -/
theorem ewblk_eq (c : Dev nD) (t : Fin cfg0.N) : ewblk m c t = argEw m c := by
  have hi := grid_facts t
  funext y
  unfold ewblk iblk
  rw [View.read_apply]
  show V m c main_arg2 _ = m ((c : Thread nD τ).loc main_arg2) _
  unfold V
  congr 1
  funext a
  apply Fin.ext
  match a with
  | ⟨0, _⟩ => show win0_2.index t 0 * 8 + 1 * (y 0).val = (y 0).val; rw [hi.2.2.2.2.1]; omega
  | ⟨1, _⟩ => show win0_2.index t 1 * 768 + 1 * (y 1).val = (y 1).val; rw [hi.2.2.2.2.2.1]; omega
  | ⟨2, _⟩ => show win0_2.index t 2 * 768 + 1 * (y 2).val = (y 2).val; rw [hi.2.2.2.2.2.2.1]; omega

/-- The biases' block is the whole array. -/
theorem ebblk_eq (c : Dev nD) (t : Fin cfg0.N) : ebblk m c t = argEb m c := by
  have hi := grid_facts t
  funext y
  unfold ebblk iblk
  rw [View.read_apply]
  show V m c main_arg3 _ = m ((c : Thread nD τ).loc main_arg3) _
  unfold V
  congr 1
  funext a
  apply Fin.ext
  match a with
  | ⟨0, _⟩ => show win0_3.index t 0 * 8 + 1 * (y 0).val = (y 0).val; rw [hi.2.2.2.2.2.2.2.1]; omega
  | ⟨1, _⟩ => show win0_3.index t 1 * 768 + 1 * (y 1).val = (y 1).val; rw [hi.2.2.2.2.2.2.2.2.1]; omega

end Cert.KernelIdeal.Moe

end
-- ==== Proof.MoePieces.lean ====
/-
  What one run of the kernel body leaves behind, as plain functions of the blocks it loads.

  At the first expert step of a token block (case A) the body computes the block's softmax gates from the token block
  and the gate weights, stores them in the scratch, seeds the output block with gates · biases, and then, like every
  other step (case B), adds to the output block the current expert's column of the gates times the token block times
  that expert's weight slab.  So:

    * after case A the scratch holds the gates, and the output block holds the step's update applied to the seed;
    * after case B the scratch is untouched, and the output block holds the step's update applied to what it held.

  Every load and store of the body goes through a whole staging buffer (the expert slab excepted, which is a
  one-expert slice of the resident weight block), so reading the stores back gives the stored values themselves.
-/
import proofs.«101478_g6734508720218_cont_9to1c4b_726_15_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Moe

open Cert.KernelIdeal Cert.KernelIdeal.Gen

variable {F : FTy → Type} [FloatOps F]

/-- The zero offsets of a rank-2 whole-buffer access, however they are spelt. -/
theorem zeroOff2 : (![0, 0] : Fin 2 → Nat) = fun _ => 0 := funext fun a => by fin_cases a <;> rfl

/-- The current expert's `[1, 768, 768]` slab of the resident `[8, 768, 768]` weight block: the slice the body loads
    at the offset its second grid coordinate (the expert step) gives. -/
def slab (i : grid0.Coords) (x2 : Vec F S8x768x768 .f32) : Vec F S1x768x768 .f32 :=
  View.ld x2 (Rect.unit (s := S8x768x768) (k0_off1 i) S1x768x768.size (k0_off1_inb i))

/-- CASE A, the scratch: the block's softmax gates. -/
theorem scratch_A (c : Dev nD) (i : grid0.Coords) (arg2 : Memref sig .tc .vmem S2048x768 .f32) (harg2 : arg2.IsWhole) (arg3 : Memref sig .tc .vmem S768x8 .f32) (harg3 : arg3.IsWhole) (arg4 : Memref sig .tc .vmem S8x768x768 .f32) (harg4 : arg4.IsWhole) (arg5 : Memref sig .tc .vmem S8x768 .f32) (harg5 : arg5.IsWhole) (arg6 : Memref sig .tc .vmem S2048x768 .f32) (harg6 : arg6.IsWhole) (arg7 : Memref sig .tc .vmem S2048x8 .f32) (harg7 : arg7.IsWhole) (hc0 : cond0_0 i) (x0 : Vec F S2048x768 .f32) (x1 : Vec F S768x8 .f32) (x2 : Vec F S8x768x768 .f32) (x3 : Vec F S8x768 .f32) :
    sout0_A_0 c i arg2 harg2 arg3 harg3 arg4 harg4 arg5 harg5 arg6 harg6 arg7 harg7 hc0 x0 x1 x2 x3 = k0_pay2 x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero zeroOff2]
  simp only [View.readAt_eq_ld, harg2.read_unread, harg3.read_unread, View.ld_unit_zero (S := S2048x768) zeroOff2,
    View.ld_unit_zero (S := S768x8) zeroOff2]

/-- CASE A, the output block: the step's update over the seed gates · biases, with the gates just stored. -/
theorem out_A (c : Dev nD) (i : grid0.Coords) (arg2 : Memref sig .tc .vmem S2048x768 .f32) (harg2 : arg2.IsWhole) (arg3 : Memref sig .tc .vmem S768x8 .f32) (harg3 : arg3.IsWhole) (arg4 : Memref sig .tc .vmem S8x768x768 .f32) (harg4 : arg4.IsWhole) (arg5 : Memref sig .tc .vmem S8x768 .f32) (harg5 : arg5.IsWhole) (arg6 : Memref sig .tc .vmem S2048x768 .f32) (harg6 : arg6.IsWhole) (arg7 : Memref sig .tc .vmem S2048x8 .f32) (harg7 : arg7.IsWhole) (hc0 : cond0_0 i) (x0 : Vec F S2048x768 .f32) (x1 : Vec F S768x8 .f32) (x2 : Vec F S8x768x768 .f32) (x3 : Vec F S8x768 .f32) :
    out0_A_4 c i arg2 harg2 arg3 harg3 arg4 harg4 arg5 harg5 arg6 harg6 arg7 harg7 hc0 x0 x1 x2 x3 = k0_pay4 i x0 (slab i x2) (k0_pay2 x0 x1) (k0_pay3 x0 x1 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S2048x768) zeroOff2]
  simp only [View.readAt_eq_ld, harg2.read_unread, harg3.read_unread, harg4.read_unread, harg5.read_unread,
    View.ld_unit_zero (S := S2048x768) zeroOff2, View.ld_unit_zero (S := S768x8) zeroOff2,
    View.ld_unit_zero (S := S8x768) zeroOff2, View.readCov_unit_zero (S := S2048x768) _ zeroOff2,
    View.readCov_unit_zero (S := S2048x8) _ zeroOff2]
  rfl

/-- CASE B, the output block: the step's update over what the block held, with the gates the scratch holds. -/
theorem out_B (c : Dev nD) (i : grid0.Coords) (arg2 : Memref sig .tc .vmem S2048x768 .f32) (harg2 : arg2.IsWhole) (arg3 : Memref sig .tc .vmem S768x8 .f32) (harg3 : arg3.IsWhole) (arg4 : Memref sig .tc .vmem S8x768x768 .f32) (harg4 : arg4.IsWhole) (arg5 : Memref sig .tc .vmem S8x768 .f32) (harg5 : arg5.IsWhole) (arg6 : Memref sig .tc .vmem S2048x768 .f32) (harg6 : arg6.IsWhole) (arg7 : Memref sig .tc .vmem S2048x8 .f32) (harg7 : arg7.IsWhole) (hc0 : ¬cond0_0 i) (x0 : Vec F S2048x768 .f32) (x1 : Vec F S768x8 .f32) (x2 : Vec F S8x768x768 .f32) (x3 : Vec F S8x768 .f32)
    (xo4 : Vec F S2048x768 .f32) (xs0 : Vec F S2048x8 .f32) :
    out0_B_4 c i arg2 harg2 arg3 harg3 arg4 harg4 arg5 harg5 arg6 harg6 arg7 harg7 hc0 x0 x1 x2 x3 xo4 xs0 = k0_pay4 i x0 (slab i x2) xs0 xo4 := by
  unfold out0_B_4
  rw [View.read_writes_eq_canon _ _ _ (cover0_B_4 c i arg2 harg2 arg3 harg3 arg4 harg4 arg5 harg5 arg6 harg6 arg7 harg7 hc0 x0 x1 x2 x3 xo4 xs0)]
  unfold kernelRun0_B
  dsimp only
  sl_unfold_words
  rw [View.canon_unit_zero zeroOff2]
  simp only [View.readAt_eq_ld, harg2.read_unread, harg4.read_unread, harg6.read_unread, harg7.read_unread,
    View.ld_unit_zero (S := S2048x768) zeroOff2, View.ld_unit_zero (S := S2048x8) zeroOff2]
  rfl

end Cert.KernelIdeal.Moe

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.MoeStep.lean ====
/-
  One expert step's update of the output block, read at an element.

  At expert step `e` the body multiplies the token block by expert `e`'s weight slab, picks column `e` of the gates by
  masking the eight lanes with "lane = e" and summing them, and adds `gate(p, e) · (x · W_e)(p, d)` to what the output
  block held at `(p, d)`.  The masked lane sum of a row is its entry in lane `e`: the other seven terms are the zero
  word.  The slab the body loads is the one-expert slice of the resident weight block at the step's own coordinate.
-/
import proofs.«101478_g6734508720218_cont_9to1c4b_726_15_alg».proof.Proof.MoePieces
import proofs.«101478_g6734508720218_cont_9to1c4b_726_15_alg».proof.Proof.LibRowwise
import Idealize.ShloMosaic.Lib.ValueLayout

noncomputable section

open Idealize.ShloMosaic Idealize.ShloMosaic.TcCoe Idealize.ShloMosaic.ValueIdx

namespace Cert.KernelIdeal.Moe

open Cert.KernelIdeal Cert.KernelIdeal.Gen Cert.Lib.Rowwise

/-- The bit "lane `k` is the step's lane `e`", on 32-bit words. -/
theorem laneBit (k e : Fin 8) :
    IntOp.cmpi .eq (BitVec.ofNat 32 k.val) (BitVec.ofNat 32 e.val) = if k = e then 1#1 else 0#1 := by
  revert k e; decide

/-- A row of eight entries masked to lane `e` and summed is its entry in lane `e`. -/
theorem maskedLaneSum (g : Fin 8 → EReal) (e : Fin 8) :
    (∑ k : Fin 8, Scalar.select (IntOp.cmpi .eq (BitVec.ofNat 32 k.val) (BitVec.ofNat 32 e.val)) (g k)
      (Ideal.ofBits .f32 0x00000000#32)) = g e := by
  have h : ∀ k : Fin 8, Scalar.select (IntOp.cmpi .eq (BitVec.ofNat 32 k.val) (BitVec.ofNat 32 e.val)) (g k)
      (Ideal.ofBits .f32 0x00000000#32) = if k = e then g k else 0 := by
    intro k
    rw [laneBit, Ideal.ofBits_zero_f32]
    by_cases hk : k = e
    · rw [if_pos hk, if_pos hk]; exact select_one _ _
    · rw [if_neg hk, if_neg hk]; exact select_zero _ _
  rw [Finset.sum_congr rfl fun k _ => h k, Finset.sum_ite_eq' Finset.univ e]
  simp

/-- The step's coordinate as a load offset: the word of `e` read back as a natural number is `e`. -/
theorem laneOffset (e : Fin 8) : (Scalar.indexCast (BitVec.ofNat 32 e.val)).toNat = e.val := by
  revert e; decide

/-- The slab at `(u, k, d)` is the weight block at `(e, k, d)`, `e` the step. -/
theorem slab_apply (i : grid0.Coords) (x2 : Vec Ideal S8x768x768 .f32) (e : Fin 8) (he : (i 1).val = e.val)
    (u : Fin 1) (k d : Fin 768) : slab i x2 (ix3 u k d) = x2 (ix3 e k d) := by
  have h0 : k0_off1 i 0 = e.val := by
    unfold k0_off1
    dsimp only
    rw [he]
    exact laneOffset e
  have hu : u.val = 0 := by omega
  unfold slab
  show x2 _ = x2 _
  refine congrArg x2 (funext fun a => Fin.ext ?_)
  match a with
  | ⟨0, _⟩ => show k0_off1 i 0 + 1 * u.val = e.val; omega
  | ⟨1, _⟩ => show k0_off1 i 1 + 1 * k.val = k.val; rw [show k0_off1 i 1 = 0 from rfl]; omega
  | ⟨2, _⟩ => show k0_off1 i 2 + 1 * d.val = d.val; rw [show k0_off1 i 2 = 0 from rfl]; omega

/-- THE STEP at `(p, d)`: what the block held there, plus lane `e` of the gates at row `p` times the row's product with
    the slab's column `d`. -/
theorem step_apply (i : grid0.Coords) (v3 : Vec Ideal S2048x768 .f32) (v5 : Vec Ideal S1x768x768 .f32)
    (v11 : Vec Ideal S2048x8 .f32) (v16 : Vec Ideal S2048x768 .f32) (e : Fin 8) (he : (i 1).val = e.val)
    (p : Fin 2048) (d : Fin 768) :
    k0_pay4 i v3 v5 v11 v16 (ix2 p d)
      = v16 (ix2 p d) + v11 (ix2 p e) * ∑ k : Fin 768, v3 (ix2 p k) * v5 (ix3 (0 : Fin 1) k d) := by
  unfold k0_pay4
  dsimp only
  rw [addf_apply, mulf_apply, shapeCast_self]
  congr 1
  congr 1
  · rw [columnBroadcast_apply _ _ (by decide), column_apply]
    refine (laneSum_apply (A := 2048) (B := 8) _ _ _ _ _ p).trans ?_
    simp only [select_apply, broadcast_apply]
    show (∑ k : Fin 8, Scalar.select (IntOp.cmpi .eq (iota .tc S2048x8 32 [1] iota_S2048x8_d1_w32 (ix2 p k))
      (BitVec.ofNat 32 (i 1).val)) (v11 (ix2 p k)) (Ideal.ofBits .f32 0x00000000#32)) = _
    simp only [iota_single_apply]
    rw [he]
    exact maskedLaneSum (fun k => v11 (ix2 p k)) e
  · rw [eq_plain dot_S2048x768_S768x768_S2048x768_1_0_0_1_n_n rfl rfl rfl rfl rfl rfl]
    refine (plain_matmul_zero_apply none v3 _ p d).trans ?_
    exact Finset.sum_congr rfl fun k _ => congrArg (v3 (ix2 p k) * ·) (shapeCast_1ab_ab_apply v5 _ k d)

end Cert.KernelIdeal.Moe

end
-- ==== Proof.MoeSpec.lean ====
/-
  The dense mixture-of-experts layer on the extended reals, for ONE token row `x` (768 features): eight gate logits
  `x · gw[:, e]`, their softmax (the row maximum subtracted first, started from the `-∞` word), eight expert outputs
  `x · ew[e] + eb[e]`, and the gate-weighted sum of those.  Two arrangements of that sum are stated here:

    * `moe`    — the sum over the experts of `gate e * (expert e d + eb e d)`;
    * `acc n`  — the bias part `∑ₑ gate e * eb e d` first, then the first `n` terms `gate e * expert e d` added one
                   at a time in expert order.

  `acc 8 = moe` is distributivity of a gate over `expert + bias`, which on the extended reals needs every factor to be a
  real number: `∞ · (1 + (-1))` is `0` but `∞ · 1 + ∞ · (-1)` is not.  For a real row and real gate weights the gates ARE
  real: a logit is a finite sum of products of reals, the row maximum of eight reals is one of them, the exponential of a
  real is a positive real, so the softmax denominator is a positive real and the quotient a real.
-/
import Idealize.ShloMosaic.PureOps.Ideal
import Idealize.ShloMosaic.PureOps.Ideal.Laws
import Idealize.ShloMosaic.Lib.ValueIdx
import Mathlib.Data.Finset.Fold

noncomputable section

namespace Cert.Moe

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem isReal_iff (a : EReal) : IsReal a ↔ a ≠ ⊥ ∧ a ≠ ⊤ :=
  ⟨fun ⟨r, h⟩ => h ▸ ⟨EReal.coe_ne_bot r, EReal.coe_ne_top r⟩, fun ⟨h1, h2⟩ => ⟨a.toReal, (EReal.coe_toReal h2 h1).symm⟩⟩

/-- A real times the sum of two reals, distributed: the one law the two arrangements of the layer differ by. -/
theorem mul_add_of_isReal {g y b : EReal} (hg : IsReal g) (hy : IsReal y) (hb : IsReal b) : g * (y + b) = g * y + g * b := by
  obtain ⟨g, rfl⟩ := hg; obtain ⟨y, rfl⟩ := hy; obtain ⟨b, rfl⟩ := hb
  rw [← EReal.coe_add, ← EReal.coe_mul, ← EReal.coe_mul, ← EReal.coe_mul, ← EReal.coe_add, mul_add]

/-- The word both programs start a row maximum from denotes `-∞`. -/
theorem negInf_eq : Ideal.ofBits .f32 0xFF800000#32 = (⊥ : EReal) := by simp [Ideal.ofBits, Ideal.ieee]

variable (x : Fin 768 → EReal) (gw : Fin 768 → Fin 8 → EReal) (ew : Fin 8 → Fin 768 → Fin 768 → EReal)
  (eb : Fin 8 → Fin 768 → EReal)

/-- Gate logit `e` of the row. -/
def logit (e : Fin 8) : EReal := ∑ k : Fin 768, x k * gw k e

/-- The row's largest logit, as both programs take it: the maximum with the `-∞` word of the fold of `max` from that word. -/
def rowMax : EReal :=
  max (Ideal.ofBits .f32 0xFF800000#32) ((Finset.univ : Finset (Fin 8)).fold max (Ideal.ofBits .f32 0xFF800000#32) (logit x gw))

/-- The shifted exponential of logit `e`. -/
def expd (e : Fin 8) : EReal := Ideal.exp (logit x gw e - rowMax x gw)

/-- Gate `e` of the row: its softmax weight. -/
def gate (e : Fin 8) : EReal := Ideal.div (expd x gw e) (∑ e' : Fin 8, expd x gw e')

/-- Expert `e`'s linear map of the row at output feature `d`, without its bias. -/
def expert (e : Fin 8) (d : Fin 768) : EReal := ∑ k : Fin 768, x k * ew e k d

/-- The layer's output feature `d` for the row. -/
def moe (d : Fin 768) : EReal := ∑ e : Fin 8, gate x gw e * (expert x ew e d + eb e d)

/-- The gate-weighted bias, `∑ₑ gate e * eb e d`: what the accumulator is seeded with. -/
def biasMix (d : Fin 768) : EReal := ∑ e : Fin 8, gate x gw e * eb e d

/-- The accumulator after the first `n` experts: the gate-weighted bias plus the first `n` gated expert outputs. -/
def acc (n : ℕ) (d : Fin 768) : EReal :=
  biasMix x gw eb d + ∑ e : Fin 8, if e.val < n then gate x gw e * expert x ew e d else 0

theorem acc_zero (d : Fin 768) : acc x gw ew eb 0 d = biasMix x gw eb d := by
  unfold acc; simp

/-- One more expert: its gated output is added. -/
theorem acc_succ (n : ℕ) (hn : n < 8) (d : Fin 768) :
    acc x gw ew eb (n + 1) d = acc x gw ew eb n d + gate x gw ⟨n, hn⟩ * expert x ew ⟨n, hn⟩ d := by
  unfold acc
  rw [add_assoc]
  congr 1
  have h : ∀ e : Fin 8, (if e.val < n + 1 then gate x gw e * expert x ew e d else 0)
      = (if e.val < n then gate x gw e * expert x ew e d else 0) + (if e = ⟨n, hn⟩ then gate x gw e * expert x ew e d else 0) := by
    intro e
    by_cases h1 : e.val < n
    · have h2 : e ≠ ⟨n, hn⟩ := fun h => by rw [h] at h1; exact absurd h1 (lt_irrefl _)
      rw [if_pos h1, if_pos (Nat.lt_succ_of_lt h1), if_neg h2, add_zero]
    · by_cases h2 : e = ⟨n, hn⟩
      · rw [if_neg h1, if_pos h2, if_pos (by rw [h2]; exact Nat.lt_succ_self n), zero_add]
      · have h3 : ¬ e.val < n + 1 := fun h => h2 (Fin.ext (show e.val = n by omega))
        rw [if_neg h1, if_neg h2, if_neg h3, add_zero]
  rw [Finset.sum_congr rfl fun e _ => h e, Finset.sum_add_distrib, Finset.sum_ite_eq' Finset.univ (⟨n, hn⟩ : Fin 8)]
  simp

/-! ## Real inputs give real gates -/

section Real

variable (hx : ∀ k, IsReal (x k)) (hgw : ∀ k e, IsReal (gw k e))
include hx hgw

theorem logit_isReal (e : Fin 8) : IsReal (logit x gw e) :=
  IsReal.sum _ _ fun k _ => (hx k).mul (hgw k e)

theorem rowMax_isReal : IsReal (rowMax x gw) := by
  unfold rowMax
  rw [negInf_eq, max_eq_right bot_le, isReal_iff]
  constructor
  · exact ne_of_gt ((Finset.lt_fold_max _).mpr (Or.inr ⟨0, Finset.mem_univ _, by
      obtain ⟨r, hr⟩ := logit_isReal x gw hx hgw 0; rw [hr]; exact EReal.bot_lt_coe r⟩))
  · exact ne_of_lt ((Finset.fold_max_lt _).mpr ⟨bot_lt_top, fun e _ => by
      obtain ⟨r, hr⟩ := logit_isReal x gw hx hgw e; rw [hr]; exact EReal.coe_lt_top r⟩)

/-- A shifted exponential is a POSITIVE real. -/
theorem expd_pos (e : Fin 8) : ∃ r : ℝ, 0 < r ∧ expd x gw e = (r : EReal) := by
  obtain ⟨r, hr⟩ := (logit_isReal x gw hx hgw e).sub (rowMax_isReal x gw hx hgw)
  exact ⟨Real.exp r, Real.exp_pos r, by unfold expd; rw [hr]; rfl⟩

theorem gate_isReal (e : Fin 8) : IsReal (gate x gw e) := by
  choose p hp0 hp using expd_pos x gw hx hgw
  have hs : (∑ e' : Fin 8, expd x gw e') = ((∑ e' : Fin 8, p e' : ℝ) : EReal) := by
    rw [Finset.sum_congr rfl fun e' _ => hp e']
    exact (Finset.induction_on (Finset.univ : Finset (Fin 8)) (by simp) fun a s ha ih => by
      rw [Finset.sum_insert ha, Finset.sum_insert ha, ih, EReal.coe_add])
  have hpos : (∑ e' : Fin 8, p e') ≠ 0 := ne_of_gt (Finset.sum_pos (fun e' _ => hp0 e') Finset.univ_nonempty)
  unfold gate
  rw [hs, Ideal.div_coe hpos, hp e]
  exact ⟨p e * (1 / ∑ e' : Fin 8, p e'), (EReal.coe_mul _ _).symm⟩

end Real

/-- THE LAW. For a real row, real gate weights, real expert weights and real biases, seeding the accumulator with the
    gate-weighted bias and adding the eight gated expert outputs gives the layer's output: each gate distributes over
    its expert's output plus bias. -/
theorem acc_eight_eq_moe (hx : ∀ k, IsReal (x k)) (hgw : ∀ k e, IsReal (gw k e)) (hew : ∀ e k d, IsReal (ew e k d))
    (heb : ∀ e d, IsReal (eb e d)) (d : Fin 768) : acc x gw ew eb 8 d = moe x gw ew eb d := by
  unfold acc biasMix moe
  rw [Finset.sum_congr rfl fun (e : Fin 8) _ => if_pos e.isLt, ← Finset.sum_add_distrib]
  refine Finset.sum_congr rfl fun e _ => ?_
  rw [add_comm]
  exact (mul_add_of_isReal (gate_isReal x gw hx hgw e) (IsReal.sum _ _ fun k _ => (hx k).mul (hew e k d)) (heb e d)).symm

/-! ## Over whole arrays: 8192 token rows -/

section Arrays

open Idealize.ShloMosaic.ValueIdx

variable (X : (⟨2, ![8192, 768]⟩ : Shape).Idx → EReal) (Gw : (⟨2, ![768, 8]⟩ : Shape).Idx → EReal)
  (Ew : (⟨3, ![8, 768, 768]⟩ : Shape).Idx → EReal) (Eb : (⟨2, ![8, 768]⟩ : Shape).Idx → EReal)

/-- Token `r`'s row of the input array, and the three parameter arrays by coordinates. -/
abbrev rowOf (r : Fin 8192) : Fin 768 → EReal := fun k => X (ix2 r k)
abbrev gwOf : Fin 768 → Fin 8 → EReal := fun k e => Gw (ix2 k e)
abbrev ewOf : Fin 8 → Fin 768 → Fin 768 → EReal := fun e k d => Ew (ix3 e k d)
abbrev ebOf : Fin 8 → Fin 768 → EReal := fun e d => Eb (ix2 e d)

/-- The layer's output array: entry `(r, d)` is output feature `d` of token row `r`. -/
def layer : (⟨2, ![8192, 768]⟩ : Shape).Idx → EReal :=
  fun i => moe (rowOf X (i 0)) (gwOf Gw) (ewOf Ew) (ebOf Eb) (i 1)

/-- The accumulated arrangement of the same array after `n` experts. -/
def layerAcc (n : ℕ) : (⟨2, ![8192, 768]⟩ : Shape).Idx → EReal :=
  fun i => acc (rowOf X (i 0)) (gwOf Gw) (ewOf Ew) (ebOf Eb) n (i 1)

/-- For real arrays, the accumulated arrangement after all eight experts is the layer's output. -/
theorem layerAcc_eight_eq_layer (hX : ∀ i, IsReal (X i)) (hGw : ∀ i, IsReal (Gw i)) (hEw : ∀ i, IsReal (Ew i))
    (hEb : ∀ i, IsReal (Eb i)) : layerAcc X Gw Ew Eb 8 = layer X Gw Ew Eb :=
  funext fun i => acc_eight_eq_moe _ _ _ _ (fun _ => hX _) (fun _ _ => hGw _) (fun _ _ _ => hEw _) (fun _ _ => hEb _) (i 1)

end Arrays

end Cert.Moe

end
-- ==== Proof.MoeGates.lean ====
/-
  The kernel block's softmax gates, and the seed gates · biases, read entry by entry.

  For a block of 2048 token rows `x0` and the gate weights `x1` the body computes, row by row: the eight logits
  `∑ₖ x0(p, k) · x1(k, e)` (a matrix product into the zero word); the row's maximum, taken as the maximum of the `-∞` word
  with the fold of `max` from that word over the eight logits; the exponentials of the logits less that maximum; their
  sum over the eight lanes; and the quotient.  Entry `(p, e)` of the result is therefore the softmax weight
  `Cert.Moe.gate` of row `p` for expert `e`.  The stored gates are these through a cast to the same shape; the seed
  of the output block is their matrix product with the biases `x3`: `∑ₑ gate(p, e) · x3(e, d)`.
-/
import proofs.«101478_g6734508720218_cont_9to1c4b_726_15_alg».proof.Proof.Gen.KernelIdeal.Skeleton
import proofs.«101478_g6734508720218_cont_9to1c4b_726_15_alg».proof.Proof.MoeSpec
import proofs.«101478_g6734508720218_cont_9to1c4b_726_15_alg».proof.Proof.LibRowwise
import Idealize.ShloMosaic.Lib.ValueIdx
import Idealize.ShloMosaic.Lib.Pipeline.Value
import Idealize.ShloMosaic.PureOps.Ideal.Laws

noncomputable section

namespace Cert.KernelIdeal.MoeGates

open Cert.KernelIdeal Cert.KernelIdeal.Gen Idealize.ShloMosaic Idealize.ShloMosaic.ValueIdx

variable (x0 : Vec Ideal S2048x768 .f32) (x1 : Vec Ideal S768x8 .f32) (x3 : Vec Ideal S8x768 .f32)

/-! ## The stages of the block's softmax, named -/

/-- The block's logits: the token block times the gate weights, into the zero word. -/
def logits : FVec Ideal S2048x8 .f32 :=
  matmul (φ₁ := .f32) (φ₂ := .f32) dot_S2048x768_S768x8_S2048x8_1_0_0_1_n_n none x0 x1 (constant S2048x8 .f32 0x00000000#32)

/-- Each row's maximum of a `[2048, 8]` vector, as the body takes it: the maximum of the `-∞` word with the lane
    maximum started from that word. -/
def rowMaxV (v : FVec Ideal S2048x8 .f32) : FVec Ideal S2048 .f32 :=
  maximumf (broadcast S2048 (Scalar.ofBits (F := Ideal) .f32 0xFF800000#32))
    (multiReduction .maximumf [1] S2048 v 0xFF800000#32 reduces_S2048x8_S2048 (.inl rfl) rfl)

/-- A per-row value laid along the eight lanes: cast to a column, then broadcast. -/
def col8 (w : FVec Ideal S2048 .f32) : FVec Ideal S2048x8 .f32 :=
  broadcastTo S2048x8 (shapeCast S2048x1 w shapeCasts_S2048_S2048x1) broadcasts_S2048x1_S2048x8

/-- The shifted exponentials. -/
def expds : FVec Ideal S2048x8 .f32 := exp (subf (logits x0 x1) (col8 (rowMaxV (logits x0 x1))))

/-- Each row's sum of its eight shifted exponentials. -/
def denoms : FVec Ideal S2048 .f32 :=
  multiReduction .add [1] S2048 (expds x0 x1) 0x00000000#32 reduces_S2048x8_S2048 (.inl rfl) rfl

/-- The body's gates are the quotient of the shifted exponentials by their row sums (by unfolding). -/
theorem k0_pay1_eq : k0_pay1 x0 x1 = divf (expds x0 x1) (col8 (denoms x0 x1)) := rfl

/-! ## Each stage at an entry -/

/-- A logit of the block is the gate logit of its row. -/
theorem logits_apply (p : Fin 2048) (e : Fin 8) :
    logits x0 x1 (ix2 p e) = Cert.Moe.logit (fun k => x0 (ix2 p k)) (fun k e => x1 (ix2 k e)) e := by
  unfold logits
  rw [Cert.Lib.Rowwise.eq_plain dot_S2048x768_S768x8_S2048x8_1_0_0_1_n_n rfl rfl rfl rfl rfl rfl]
  exact Cert.Lib.Rowwise.plain_matmul_zero_apply none x0 x1 p e

/-- The row maximum at row `p`: the maximum of the `-∞` word with the fold of `max` from it over the row. -/
theorem rowMaxV_apply (v : FVec Ideal S2048x8 .f32) (p : Fin 2048) :
    rowMaxV v (ix1 p) = max (Ideal.ofBits .f32 0xFF800000#32)
      ((Finset.univ : Finset (Fin 8)).fold max (Ideal.ofBits .f32 0xFF800000#32) fun k => v (ix2 p k)) := by
  unfold rowMaxV
  rw [maximumf_apply, broadcast_apply]
  exact congrArg (max (Ideal.ofBits .f32 0xFF800000#32))
    (Cert.Lib.Rowwise.laneMax_apply v 0xFF800000#32 reduces_S2048x8_S2048 (.inl rfl) rfl p)

/-- A per-row value laid along the lanes reads the row's value at every lane. -/
theorem col8_apply (w : FVec Ideal S2048 .f32) (p : Fin 2048) (e : Fin 8) : col8 w (ix2 p e) = w (ix1 p) := by
  unfold col8
  rw [Cert.Lib.Rowwise.columnBroadcast_apply _ _ (by decide) p e, Cert.Lib.Rowwise.column_apply]

/-- A shifted exponential of the block is the row's. -/
theorem expds_apply (p : Fin 2048) (e : Fin 8) :
    expds x0 x1 (ix2 p e) = Cert.Moe.expd (fun k => x0 (ix2 p k)) (fun k e => x1 (ix2 k e)) e := by
  unfold expds Cert.Moe.expd Cert.Moe.rowMax
  show Ideal.exp (subf (logits x0 x1) (col8 (rowMaxV (logits x0 x1))) (ix2 p e)) = _
  rw [subf_apply, col8_apply, rowMaxV_apply, logits_apply]
  simp only [logits_apply]

/-- A row sum of the block is the softmax denominator of the row. -/
theorem denoms_apply (p : Fin 2048) :
    denoms x0 x1 (ix1 p) = ∑ e' : Fin 8, Cert.Moe.expd (fun k => x0 (ix2 p k)) (fun k e => x1 (ix2 k e)) e' := by
  unfold denoms
  refine (Cert.Lib.Rowwise.laneSum_apply (expds x0 x1) 0x00000000#32 reduces_S2048x8_S2048 (.inl rfl) rfl p).trans ?_
  exact Finset.sum_congr rfl fun e' _ => expds_apply x0 x1 p e'

/-! ## The three payloads -/

/-- THE GATES.  Entry `(p, e)` of the body's quotient is the softmax weight of token row `p` for expert `e`. -/
theorem gates_apply (p : Fin 2048) (e : Fin 8) :
    k0_pay1 x0 x1 (ix2 p e) = Cert.Moe.gate (fun k => x0 (ix2 p k)) (fun k e => x1 (ix2 k e)) e := by
  rw [k0_pay1_eq, divf_apply, col8_apply, denoms_apply, expds_apply]
  rfl

/-- THE STORED GATES are the gates: a cast to the same shape changes nothing. -/
theorem stored_gates_eq : k0_pay2 x0 x1 = k0_pay1 x0 x1 := by
  unfold k0_pay2
  exact shapeCast_self _ _

/-- THE SEED.  Entry `(p, d)` of the gates times the biases, into the zero word: the sum over the eight experts of the
    gate times the expert's bias at feature `d`. -/
theorem seed_apply (p : Fin 2048) (d : Fin 768) :
    k0_pay3 x0 x1 x3 (ix2 p d) = ∑ e : Fin 8, k0_pay1 x0 x1 (ix2 p e) * x3 (ix2 e d) := by
  unfold k0_pay3
  show FloatOps.matmul dot_S2048x8_S8x768_S2048x768_1_0_0_1_n_n none (k0_pay1 x0 x1) x3
    (constant S2048x768 .f32 0x00000000#32) (ix2 p d) = _
  rw [Cert.Lib.Rowwise.eq_plain dot_S2048x8_S8x768_S2048x768_1_0_0_1_n_n rfl rfl rfl rfl rfl rfl]
  exact Cert.Lib.Rowwise.plain_matmul_zero_apply none (k0_pay1 x0 x1) x3 p d

end Cert.KernelIdeal.MoeGates

end
-- ==== Proof.MoeRun.lean ====
/-
  The kernel's result array.  For token block `b`, write `gates b` for the block's softmax gates and `acc b n` for the
  block of the accumulated arrangement after `n` experts (the gate-weighted bias plus the first `n` gated expert
  outputs).  By induction on the grid point `t`, with `b = t / 8` and `e = t % 8`:

      after point `t` the scratch holds `gates b` and the output block holds `acc b (e + 1)`.

  At `e = 0` the body computes the gates, seeds the block with gates · biases (`acc b 0`) and applies step 0; at `e > 0`
  it applies step `e` to what point `t - 1` left, which is the same token block's `acc b e` and `gates b`.  The block is
  written back after step 7 holding `acc b 8`; the four blocks tile the result array, which therefore ends holding the
  accumulated arrangement of the whole layer after all eight experts.
-/
import proofs.«101478_g6734508720218_cont_9to1c4b_726_15_alg».proof.Proof.MoeReads
import proofs.«101478_g6734508720218_cont_9to1c4b_726_15_alg».proof.Proof.MoeStep
import proofs.«101478_g6734508720218_cont_9to1c4b_726_15_alg».proof.Proof.MoeGates
import proofs.«101478_g6734508720218_cont_9to1c4b_726_15_alg».proof.Proof.MoeSpec

noncomputable section

open Idealize.ShloMosaic Idealize.ShloMosaic.TcCoe Idealize.SL.Sem Idealize.ShloMosaic.ValueIdx
open Idealize.ShloMosaic.Pipeline (Dat)

namespace Cert.KernelIdeal.Moe

open Cert.KernelIdeal Cert.KernelIdeal.Gen Cert.KernelIdeal.MoeGates

variable (m : (ℓ : Loc nD τ sig) → Buf (Elt Ideal) ℓ) (ρ : Dev nD → PrngReg)

/-- Token block `b`'s softmax gates. -/
def gatesOf (c : Dev nD) (b : ℕ) (hb : b < 4) : Vec Ideal S2048x8 .f32 :=
  fun y => Cert.Moe.gate (Cert.Moe.rowOf (argX m c) (tokenRow b hb (y 0))) (Cert.Moe.gwOf (argGw m c)) (y 1)

/-- Token block `b` of the accumulated arrangement after `n` experts. -/
def accOf (c : Dev nD) (b : ℕ) (hb : b < 4) (n : ℕ) : Vec Ideal S2048x768 .f32 :=
  fun y => Cert.Moe.acc (Cert.Moe.rowOf (argX m c) (tokenRow b hb (y 0))) (Cert.Moe.gwOf (argGw m c))
    (Cert.Moe.ewOf (argEw m c)) (Cert.Moe.ebOf (argEb m c)) n (y 1)

/-- The gates the body computes from the blocks at `t` are token block `t / 8`'s. -/
theorem gates_blk (c : Dev nD) (t : Fin cfg0.N) :
    k0_pay1 (xblk m c t) (gwblk m c t) = gatesOf m c (t.val / 8) (blockOf_lt t) := by
  funext y
  obtain ⟨p, e, rfl⟩ : ∃ (p : Fin 2048) (e : Fin 8), y = ix2 p e := ⟨y 0, y 1, eq_ix2 y⟩
  rw [gates_apply, gwblk_eq]
  simp only [xblk_apply]
  rfl

/-- The seed gates · biases is the block of the accumulated arrangement before any expert. -/
theorem seed_blk (c : Dev nD) (t : Fin cfg0.N) :
    k0_pay3 (xblk m c t) (gwblk m c t) (ebblk m c t) = accOf m c (t.val / 8) (blockOf_lt t) 0 := by
  funext y
  obtain ⟨p, d, rfl⟩ : ∃ (p : Fin 2048) (d : Fin 768), y = ix2 p d := ⟨y 0, y 1, eq_ix2 y⟩
  rw [seed_apply, gates_blk, ebblk_eq]
  show _ = Cert.Moe.acc _ _ _ _ 0 d
  rw [Cert.Moe.acc_zero]
  rfl

/-- ONE STEP on token block `t / 8`: from the block after `n` experts and the block's gates, step `n` gives the block
    after `n + 1` experts. -/
theorem step_blk (c : Dev nD) (t : Fin cfg0.N) (n : ℕ) (hn : n < 8) (he : ((grid0.coords t) 1).val = n) :
    k0_pay4 (grid0.coords t) (xblk m c t) (slab (grid0.coords t) (ewblk m c t)) (gatesOf m c (t.val / 8) (blockOf_lt t))
        (accOf m c (t.val / 8) (blockOf_lt t) n)
      = accOf m c (t.val / 8) (blockOf_lt t) (n + 1) := by
  funext y
  obtain ⟨p, d, rfl⟩ : ∃ (p : Fin 2048) (d : Fin 768), y = ix2 p d := ⟨y 0, y 1, eq_ix2 y⟩
  rw [step_apply (grid0.coords t) _ _ _ _ ⟨n, hn⟩ he p d]
  simp only [slab_apply (grid0.coords t) _ ⟨n, hn⟩ he, xblk_apply]
  rw [ewblk_eq]
  show _ = Cert.Moe.acc _ _ _ _ (n + 1) d
  rw [Cert.Moe.acc_succ _ _ _ _ n hn]
  rfl

/-- The same step, from any contents known to be the block after `n` experts and the block's gates. -/
theorem step_of_eq (c : Dev nD) (t : Fin cfg0.N) (n : ℕ) (hn : n < 8) (he : ((grid0.coords t) 1).val = n)
    (g : Vec Ideal S2048x8 .f32) (a : Vec Ideal S2048x768 .f32) (hg : g = gatesOf m c (t.val / 8) (blockOf_lt t))
    (ha : a = accOf m c (t.val / 8) (blockOf_lt t) n) :
    k0_pay4 (grid0.coords t) (xblk m c t) (slab (grid0.coords t) (ewblk m c t)) g a
      = accOf m c (t.val / 8) (blockOf_lt t) (n + 1) := by
  subst hg ha
  exact step_blk m c t n hn he

/-- The block functions depend on the token block and the expert count only through their values. -/
theorem accOf_congr (c : Dev nD) {b b' : ℕ} (hb : b < 4) (hb' : b' < 4) (e : b = b') {n n' : ℕ} (en : n = n') :
    accOf m c b hb n = accOf m c b' hb' n' := by
  subst e en; rfl
theorem gatesOf_congr (c : Dev nD) {b b' : ℕ} (hb : b < 4) (hb' : b' < 4) (e : b = b') :
    gatesOf m c b hb = gatesOf m c b' hb' := by
  subst e; rfl

/-- THE INVARIANT: after point `n` the output block holds token block `n / 8` after `n % 8 + 1` experts, and the scratch
    that block's gates. -/
theorem outsAt_eq (c : Dev nD) : ∀ (n : ℕ) (h : n < cfg0.N),
    outsAt0 m c n h = (accOf m c (n / 8) (blockOf_lt ⟨n, h⟩) (n % 8 + 1), gatesOf m c (n / 8) (blockOf_lt ⟨n, h⟩)) := by
  intro n
  induction n using Nat.strong_induction_on with
  | _ n ih =>
    intro h
    have hN : cfg0.N = 32 := N_0
    have hco : ((grid0.coords (⟨n, h⟩ : Fin cfg0.N)) 1).val = n % 8 := (grid_facts ⟨n, h⟩).2.2.2.2.2.2.2.2.2.2.2
    by_cases h0 : n % 8 = 0
    · rw [outsAt0_A m c ⟨n, h⟩ h0]
      refine congrArg₂ Prod.mk ?_ ?_
      · refine (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (xblk m c ⟨n, h⟩) (gwblk m c ⟨n, h⟩) (ewblk m c ⟨n, h⟩) (ebblk m c ⟨n, h⟩)).trans ?_
        rw [stored_gates_eq, gates_blk, seed_blk, h0]
        exact step_blk m c ⟨n, h⟩ 0 (by norm_num) (hco.trans h0)
      · refine (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (xblk m c ⟨n, h⟩) (gwblk m c ⟨n, h⟩) (ewblk m c ⟨n, h⟩) (ebblk m c ⟨n, h⟩)).trans ?_
        rw [stored_gates_eq]
        exact gates_blk m c ⟨n, h⟩
    · rw [outsAt0_B m c ⟨n, h⟩ h0]
      have hp := ih (n - 1) (by omega) (Nat.lt_of_le_of_lt (Nat.sub_le _ _) h)
      have hb : (n - 1) / 8 = n / 8 := by omega
      have hs : (n - 1) % 8 + 1 = n % 8 := by omega
      have hacc : (outsAt0 m c (n - 1) (Nat.lt_of_le_of_lt (Nat.sub_le _ _) h)).1 = accOf m c (n / 8) (blockOf_lt ⟨n, h⟩) (n % 8) :=
        (congrArg Prod.fst hp).trans (accOf_congr m c _ _ hb hs)
      have hgt : (outsAt0 m c (n - 1) (Nat.lt_of_le_of_lt (Nat.sub_le _ _) h)).2 = gatesOf m c (n / 8) (blockOf_lt ⟨n, h⟩) :=
        (congrArg Prod.snd hp).trans (gatesOf_congr m c _ _ hb)
      refine congrArg₂ Prod.mk ?_ ?_
      · exact (out_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hc => h0 ((hcond0_0 ⟨n, h⟩).mp hc)) (xblk m c ⟨n, h⟩) (gwblk m c ⟨n, h⟩) (ewblk m c ⟨n, h⟩) (ebblk m c ⟨n, h⟩) (outsAt0 m c (n - 1) (Nat.lt_of_le_of_lt (Nat.sub_le _ _) h)).1 (outsAt0 m c (n - 1) (Nat.lt_of_le_of_lt (Nat.sub_le _ _) h)).2).trans
          (step_of_eq m c ⟨n, h⟩ (n % 8) (Nat.mod_lt _ (by norm_num)) hco _ _ hgt hacc)
      · exact hgt

/-- The result array after the run: the accumulated arrangement of the whole layer after all eight experts. -/
abbrev result (c : Dev nD) : Buf (Elt Ideal) ((c : Thread nD τ).loc main_v0) :=
  Cert.Moe.layerAcc (argX m c) (argGw m c) (argEw m c) (argEb m c) 8

/-- What a flushing point writes back — the points after step 7 — is its block of `result`. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hi := grid_facts t
  rw [Value.flushed4, outsAt_eq m c t.val t.isLt]
  funext j
  show accOf m c (t.val / 8) _ (t.val % 8 + 1) j = Cert.Moe.layerAcc _ _ _ _ 8 (((cfg0.win 4).blk t).view.emb j)
  rw [h7]
  have e0 : (((cfg0.win 4).blk t).view.emb j) 0 = tokenRow (t.val / 8) (blockOf_lt t) (j 0) := Fin.ext (by
    show win0_4.index t 0 * 2048 + 1 * (j 0).val = 2048 * (t.val / 8) + (j 0).val
    rw [hi.2.2.2.2.2.2.2.2.2.1]; omega)
  have e1 : (((cfg0.win 4).blk t).view.emb j) 1 = j 1 := Fin.ext (by
    show win0_4.index t 1 * 768 + 1 * (j 1).val = (j 1).val
    rw [hi.2.2.2.2.2.2.2.2.2.2.1]; omega)
  unfold accOf Cert.Moe.layerAcc
  rw [e0, e1]

/-- Every entry of the result array lies in the block of the point that finishes its token block. -/
theorem cover (c : Dev nD) (i : S8192x768.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 768 := (i 1).isLt
  have hlt : 8 * ((i 0).val / 2048) + 7 < cfg0.N := by omega
  have hf := grid_facts ⟨8 * ((i 0).val / 2048) + 7, hlt⟩
  refine ⟨⟨8 * ((i 0).val / 2048) + 7, hlt⟩, (flush0_4 _).mpr (by show (8 * ((i 0).val / 2048) + 7) % 8 = 7; omega), ?_⟩
  show i ∈ ((View.whole main_v0).slice (win0_4.rect ⟨8 * ((i 0).val / 2048) + 7, hlt⟩)).set
  rw [View.set_slice_whole, Rect.mem_set_unit]
  intro a
  match a with
  | ⟨0, _⟩ =>
    show win0_4.index ⟨8 * ((i 0).val / 2048) + 7, hlt⟩ 0 * 2048 ≤ (i 0).val
      ∧ (i 0).val < win0_4.index ⟨8 * ((i 0).val / 2048) + 7, hlt⟩ 0 * 2048 + 2048
    rw [hf.2.2.2.2.2.2.2.2.2.1]
    show (8 * ((i 0).val / 2048) + 7) / 8 * 2048 ≤ (i 0).val ∧ (i 0).val < (8 * ((i 0).val / 2048) + 7) / 8 * 2048 + 2048
    omega
  | ⟨1, _⟩ =>
    show win0_4.index ⟨8 * ((i 0).val / 2048) + 7, hlt⟩ 1 * 768 ≤ (i 1).val
      ∧ (i 1).val < win0_4.index ⟨8 * ((i 0).val / 2048) + 7, hlt⟩ 1 * 768 + 768
    rw [hf.2.2.2.2.2.2.2.2.2.2.1]
    omega

/-- So the result array ends holding `result`. -/
theorem final (c : Dev nD) : (dats m 0 c).arrAt 4 cfg0.N = result m c :=
  (dats m 0 c).arrAt_eq_of_cover 4 (result m c) (flushed_eq m c) (cover c)

/-- THE KERNEL'S RUN, READ: every weakly fair execution terminates with the result array at the accumulated arrangement
    of the layer after all eight experts, and the four argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Moe

end
-- ==== Proof.MoeReference.lean ====
/-
  The reference program computes the dense mixture-of-experts layer, entry by entry, on the extended reals.

  Fix a token row r (one of 8192) and an output feature d (one of 768).  Reading the reference one operation at a
  time at the entry (r, d):

    * the logit array at (r, e) is  ∑ₖ x(r, k) · gw(k, e),  the row's gate logit e;
    * the row maximum is taken as  max w (fold of max from w over the eight logits),  w the word for -∞, which is
      how the row maximum of the specification is written: w is the same word on both sides and is never evaluated;
    * the shifted exponentials, their sum started from the zero word (0 + ∑ = ∑), and the quotient give the gate
      array: at (r, e) it is the softmax weight  gate e  of the row;
    * for each expert e = 0, …, 7 the same fourteen operations follow: expert e's 768 × 768 weights and its bias are
      sliced out of the stacked parameters and reshaped, the row is mapped through them, column e of the gate array is
      spread over the 768 features, and the two are multiplied.  At (r, d) this product is
          gate e · (∑ₖ x(r, k) · ew(e, k, d) + eb(e, d));
      the only arithmetic is on indices: a slice adds its offset e on the expert axis, and dropping the unit axis
      sends (k, d) through the flat position k · 768 + d and back, (k · 768 + d) / 768 % 768 = k and
      (k · 768 + d) % 768 = d;
    * the running result starts as the zero array and gains one product per expert, so at (r, d) it ends as
          (((((((0 + t₀) + t₁) + t₂) + t₃) + t₄) + t₅) + t₆) + t₇,      tₑ the product above,
      and 0 + t₀ = t₀ while the sum over the eight experts, written out, is this same left-nested sum.

  Nothing here needs an entry to be finite: the extended reals are an additive commutative monoid with 0 neutral,
  and no product is distributed.
-/
import proofs.«101478_g6734508720218_cont_9to1c4b_726_15_alg».proof.Proof.Gen.ReferenceIdeal.Read
import proofs.«101478_g6734508720218_cont_9to1c4b_726_15_alg».proof.Proof.MoeSpec

noncomputable section

namespace Cert.ReferenceIdeal.MoeRef

open Cert.ReferenceIdeal Cert.ReferenceIdeal.Gen Cert.ReferenceIdeal.Read Idealize.ShloMosaic Idealize.ShloMosaic.ValueIdx

variable (x0 : (⟨S8192x768, .f32⟩ : BufTy).Contents (Elt Ideal)) (x1 : (⟨S768x8, .f32⟩ : BufTy).Contents (Elt Ideal))
  (x2 : (⟨S8x768x768, .f32⟩ : BufTy).Contents (Elt Ideal)) (x3 : (⟨S8x768, .f32⟩ : BufTy).Contents (Elt Ideal))

/-! ## The gate logits -/

/-- The left operand of the logit contraction at entry `(r, e)`, term `k`, is the input at `(r, k)`. -/
theorem lidx_v0 (r : Fin 8192) (e : Fin 8) (k : Fin 768) : lidx_main_v0 (ix2 r e) k = ix2 r k :=
  funext fun a => Fin.ext (by match a with | ⟨0, _⟩ => rfl | ⟨1, _⟩ => rfl)

/-- The right operand of the logit contraction at entry `(r, e)`, term `k`, is the gate weight at `(k, e)`. -/
theorem ridx_v0 (r : Fin 8192) (e : Fin 8) (k : Fin 768) : ridx_main_v0 (ix2 r e) k = ix2 k e :=
  funext fun a => Fin.ext (by match a with | ⟨0, _⟩ => rfl | ⟨1, _⟩ => rfl)

/-- Entry `(r, e)` of the logit array is gate logit `e` of token row `r`: `∑ₖ x(r, k) · gw(k, e)`. -/
theorem logits (r : Fin 8192) (e : Fin 8) :
    val_main_v0 (F := Ideal) x0 x1 (ix2 r e) = Cert.Moe.logit (Cert.Moe.rowOf x0 r) (Cert.Moe.gwOf x1) e := by
  rw [val_main_v0_apply]
  exact Finset.sum_congr rfl fun k _ => by rw [lidx_v0, ridx_v0]

/-! ## The row maximum -/

/-- Reducing the `8192 × 8` logit array along its second axis leaves the `8192` rows. -/
theorem reduces_logits : S8192x8.Reduces [1] S8192 := by decide

/-- The entry of row `r` with coordinate `k` put back on the reduced axis is `(r, k)`. -/
theorem lift_row (r : Fin 8192) (k : Fin 8) : reduces_logits.lift (ix1 r) k = ix2 r k :=
  funext fun a => Fin.ext (by match a with | ⟨0, _⟩ => rfl | ⟨1, _⟩ => rfl)

/-- A maximum-reduction of an `8192 × 8` array along its rows is, at row `r`, the fold of `max` from the initial
    value over the row's eight entries: `max` is commutative and associative, so the order of the fold is immaterial. -/
theorem rowFold (y : S8192x8.Idx → EReal) (w : S_.Idx → EReal) (r : Fin 8192) :
    Host.reduce (FloatOps.maximumf (F := Ideal) (φ := .f32)) y w reducesTo_S8192x8_S8192_d1 h_S_ (ix1 r)
      = (Finset.univ : Finset (Fin 8)).fold max (w (Shape.Idx.first h_S_)) fun k => y (ix2 r k) := by
  refine (Host.reduce_eq_fold_single (α := EReal) (s := S8192x8) (t := S8192) (a := 1) (u := S_)
    (FloatOps.maximumf (F := Ideal) (φ := .f32)) y w reducesTo_S8192x8_S8192_d1 reduces_logits h_S_ (ix1 r)).trans ?_
  have hf : (y ∘ reduces_logits.lift (ix1 r)) = fun k : Fin 8 => y (ix2 r k) :=
    funext fun k => congrArg y (lift_row r k)
  rw [hf]
  rfl

/-- Entry `r` of the maximum array is the row maximum of token row `r` as the specification writes it: the maximum
    of the `-∞` word with the fold of `max` from that word over the eight logits.  The word is left as it is. -/
theorem rowMax_eq (r : Fin 8192) :
    val_main_v3 (F := Ideal) x0 x1 (ix1 r) = Cert.Moe.rowMax (Cert.Moe.rowOf x0 r) (Cert.Moe.gwOf x1) := by
  rw [val_main_v3_apply, val_main_v2_apply, val_main_cst_0_apply, Ideal.maximumf_def, Ideal.ofBits_def]
  unfold val_main_v1 Cert.Moe.rowMax
  refine congrArg (max _) ?_
  refine (rowFold _ _ r).trans ?_
  rw [val_main_cst_apply, Ideal.ofBits_def]
  exact congrArg (fun f => (Finset.univ : Finset (Fin 8)).fold max _ f) (funext fun k => logits x0 x1 r k)

/-! ## The softmax -/

/-- The row maximum spread back over the eight columns is read, at `(r, e)`, at row `r`. -/
theorem idx_v4_v5 (r : Fin 8192) (e : Fin 8) : idx_main_v4 (idx_main_v5 (ix2 r e)) = ix1 r :=
  funext fun a => Fin.ext (by match a with | ⟨0, _⟩ => rfl)

/-- Entry `(r, e)` of the exponential array is the shifted exponential `exp (logit e - rowMax)` of row `r`. -/
theorem expd_eq (r : Fin 8192) (e : Fin 8) :
    val_main_v7 (F := Ideal) x0 x1 (ix2 r e) = Cert.Moe.expd (Cert.Moe.rowOf x0 r) (Cert.Moe.gwOf x1) e := by
  rw [val_main_v7_apply, val_main_v6_apply, val_main_v5_apply, val_main_v4_apply, idx_v4_v5, rowMax_eq, logits,
    Ideal.hostUnary_exp_def, Ideal.subf_def]
  rfl

/-- Term `k` of the row sum at row `r` is the entry `(r, k)`. -/
theorem idx_v8 (r : Fin 8192) (k : Fin 8) : idx_main_v8 (ix1 r) k = ix2 r k :=
  funext fun a => Fin.ext (by match a with | ⟨0, _⟩ => rfl | ⟨1, _⟩ => rfl)

/-- The row sum spread back over the eight columns is read, at `(r, e)`, at row `r`. -/
theorem idx_v9_v10 (r : Fin 8192) (e : Fin 8) : idx_main_v9 (idx_main_v10 (ix2 r e)) = ix1 r :=
  funext fun a => Fin.ext (by match a with | ⟨0, _⟩ => rfl)

/-- Entry `r` of the denominator array is the sum of the row's eight shifted exponentials: the sum is started from
    the zero word, which is `0`, and `0 + s = s`. -/
theorem denom_eq (r : Fin 8192) :
    val_main_v8 (F := Ideal) x0 x1 (ix1 r) = ∑ e : Fin 8, Cert.Moe.expd (Cert.Moe.rowOf x0 r) (Cert.Moe.gwOf x1) e := by
  rw [val_main_v8_apply, val_main_cst_1_apply, Ideal.ofBits_def, Ideal.ofBits_zero_f32, zero_add]
  exact Finset.sum_congr rfl fun k _ => by rw [idx_v8, expd_eq]

/-- Entry `(r, e)` of the gate array is gate `e` of token row `r`: its softmax weight. -/
theorem gate_eq (r : Fin 8192) (e : Fin 8) :
    val_main_v11 (F := Ideal) x0 x1 (ix2 r e) = Cert.Moe.gate (Cert.Moe.rowOf x0 r) (Cert.Moe.gwOf x1) e := by
  rw [val_main_v11_apply, val_main_v10_apply, val_main_v9_apply, idx_v9_v10, denom_eq, expd_eq, Ideal.hostDivf_def]
  rfl

/-! ## Expert 0

The same eight statements are made for each expert, over that expert's own buffers. -/

/-- The left operand of expert 0's contraction at `(r, d)`, term `k`, is the input at `(r, k)`. -/
theorem lidx_v15 (r : Fin 8192) (d k : Fin 768) : lidx_main_v15 (ix2 r d) k = ix2 r k :=
  funext fun a => Fin.ext (by match a with | ⟨0, _⟩ => rfl | ⟨1, _⟩ => rfl)

/-- The right operand of that contraction, read back through the reshape and the slice, is the stacked weight at
    `(0, k, d)`: the flat position `k · 768 + d` splits back into `k` and `d`, and the slice starts at expert 0. -/
theorem weightIdx_0 (r : Fin 8192) (d k : Fin 768) :
    idx_main_v13 (idx_main_v14 (ridx_main_v15 (ix2 r d) k)) = ix3 (0 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 0's bias spread over the rows, read back through the reshape and the slice, is the stacked bias at `(0, d)`. -/
theorem biasIdx_0 (r : Fin 8192) (d : Fin 768) :
    idx_main_v16 (idx_main_v17 (idx_main_v18 (idx_main_v19 (ix2 r d)))) = ix2 (0 : Fin 8) d :=
  funext fun a => Fin.ext (by
    have hd := d.isLt
    match a with
    | ⟨0, _⟩ => rfl
    | ⟨1, _⟩ => show d.val % 768 = d.val; omega)

/-- Gate column 0 spread over the features, read back through the reshape and the slice, is the gate array at `(r, 0)`. -/
theorem gateIdx_0 (r : Fin 8192) (d : Fin 768) :
    idx_main_v21 (idx_main_v22 (idx_main_v23 (idx_main_v24 (ix2 r d)))) = ix2 r (0 : Fin 8) :=
  funext fun a => Fin.ext (by
    match a with
    | ⟨0, _⟩ => show r.val / 1 = r.val; omega
    | ⟨1, _⟩ => rfl)

/-- Expert 0's linear map of row `r` at feature `d`: `∑ₖ x(r, k) · ew(0, k, d)`. -/
theorem expert_0 (r : Fin 8192) (d : Fin 768) :
    val_main_v15 (F := Ideal) x0 x2 (ix2 r d) = Cert.Moe.expert (Cert.Moe.rowOf x0 r) (Cert.Moe.ewOf x2) 0 d := by
  rw [val_main_v15_apply]
  exact Finset.sum_congr rfl fun k _ => by rw [val_main_v14_apply, val_main_v13_apply, weightIdx_0, lidx_v15]

/-- Expert 0's bias at feature `d`, whatever the row. -/
theorem bias_0 (r : Fin 8192) (d : Fin 768) : val_main_v19 (F := Ideal) x3 (ix2 r d) = Cert.Moe.ebOf x3 0 d := by
  rw [val_main_v19_apply, val_main_v18_apply, val_main_v17_apply, val_main_v16_apply, biasIdx_0]

/-- Gate 0 of row `r`, whatever the feature. -/
theorem gateCol_0 (r : Fin 8192) (d : Fin 768) :
    val_main_v24 (F := Ideal) x0 x1 (ix2 r d) = Cert.Moe.gate (Cert.Moe.rowOf x0 r) (Cert.Moe.gwOf x1) 0 := by
  rw [val_main_v24_apply, val_main_v23_apply, val_main_v22_apply, val_main_v21_apply, gateIdx_0, gate_eq]

/-- Expert 0's term of the layer at `(r, d)`: `gate 0 · (expert 0 d + eb 0 d)`. -/
theorem term_0 (r : Fin 8192) (d : Fin 768) :
    val_main_v25 (F := Ideal) x0 x1 x2 x3 (ix2 r d)
      = Cert.Moe.gate (Cert.Moe.rowOf x0 r) (Cert.Moe.gwOf x1) 0
        * (Cert.Moe.expert (Cert.Moe.rowOf x0 r) (Cert.Moe.ewOf x2) 0 d + Cert.Moe.ebOf x3 0 d) := by
  rw [val_main_v25_apply, val_main_v20_apply, gateCol_0, expert_0, bias_0, Ideal.mulf_def, Ideal.addf_def]

/-! ## Expert 1 -/

/-- The left operand of expert 1's contraction at `(r, d)`, term `k`, is the input at `(r, k)`. -/
theorem lidx_v29 (r : Fin 8192) (d k : Fin 768) : lidx_main_v29 (ix2 r d) k = ix2 r k :=
  funext fun a => Fin.ext (by match a with | ⟨0, _⟩ => rfl | ⟨1, _⟩ => rfl)

/-- The right operand, read back through the reshape and the slice, is the stacked weight at `(1, k, d)`. -/
theorem weightIdx_1 (r : Fin 8192) (d k : Fin 768) :
    idx_main_v27 (idx_main_v28 (ridx_main_v29 (ix2 r d) k)) = ix3 (1 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 1's bias spread over the rows is the stacked bias at `(1, d)`. -/
theorem biasIdx_1 (r : Fin 8192) (d : Fin 768) :
    idx_main_v30 (idx_main_v31 (idx_main_v32 (idx_main_v33 (ix2 r d)))) = ix2 (1 : Fin 8) d :=
  funext fun a => Fin.ext (by
    have hd := d.isLt
    match a with
    | ⟨0, _⟩ => rfl
    | ⟨1, _⟩ => show d.val % 768 = d.val; omega)

/-- Gate column 1 spread over the features is the gate array at `(r, 1)`. -/
theorem gateIdx_1 (r : Fin 8192) (d : Fin 768) :
    idx_main_v35 (idx_main_v36 (idx_main_v37 (idx_main_v38 (ix2 r d)))) = ix2 r (1 : Fin 8) :=
  funext fun a => Fin.ext (by
    match a with
    | ⟨0, _⟩ => show r.val / 1 = r.val; omega
    | ⟨1, _⟩ => rfl)

/-- Expert 1's linear map of row `r` at feature `d`. -/
theorem expert_1 (r : Fin 8192) (d : Fin 768) :
    val_main_v29 (F := Ideal) x0 x2 (ix2 r d) = Cert.Moe.expert (Cert.Moe.rowOf x0 r) (Cert.Moe.ewOf x2) 1 d := by
  rw [val_main_v29_apply]
  exact Finset.sum_congr rfl fun k _ => by rw [val_main_v28_apply, val_main_v27_apply, weightIdx_1, lidx_v29]

/-- Expert 1's bias at feature `d`. -/
theorem bias_1 (r : Fin 8192) (d : Fin 768) : val_main_v33 (F := Ideal) x3 (ix2 r d) = Cert.Moe.ebOf x3 1 d := by
  rw [val_main_v33_apply, val_main_v32_apply, val_main_v31_apply, val_main_v30_apply, biasIdx_1]

/-- Gate 1 of row `r`. -/
theorem gateCol_1 (r : Fin 8192) (d : Fin 768) :
    val_main_v38 (F := Ideal) x0 x1 (ix2 r d) = Cert.Moe.gate (Cert.Moe.rowOf x0 r) (Cert.Moe.gwOf x1) 1 := by
  rw [val_main_v38_apply, val_main_v37_apply, val_main_v36_apply, val_main_v35_apply, gateIdx_1, gate_eq]

/-- Expert 1's term of the layer at `(r, d)`: `gate 1 · (expert 1 d + eb 1 d)`. -/
theorem term_1 (r : Fin 8192) (d : Fin 768) :
    val_main_v39 (F := Ideal) x0 x1 x2 x3 (ix2 r d)
      = Cert.Moe.gate (Cert.Moe.rowOf x0 r) (Cert.Moe.gwOf x1) 1
        * (Cert.Moe.expert (Cert.Moe.rowOf x0 r) (Cert.Moe.ewOf x2) 1 d + Cert.Moe.ebOf x3 1 d) := by
  rw [val_main_v39_apply, val_main_v34_apply, gateCol_1, expert_1, bias_1, Ideal.mulf_def, Ideal.addf_def]

/-! ## Expert 2 -/

/-- The left operand of expert 2's contraction at `(r, d)`, term `k`, is the input at `(r, k)`. -/
theorem lidx_v43 (r : Fin 8192) (d k : Fin 768) : lidx_main_v43 (ix2 r d) k = ix2 r k :=
  funext fun a => Fin.ext (by match a with | ⟨0, _⟩ => rfl | ⟨1, _⟩ => rfl)

/-- The right operand, read back through the reshape and the slice, is the stacked weight at `(2, k, d)`. -/
theorem weightIdx_2 (r : Fin 8192) (d k : Fin 768) :
    idx_main_v41 (idx_main_v42 (ridx_main_v43 (ix2 r d) k)) = ix3 (2 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 2's bias spread over the rows is the stacked bias at `(2, d)`. -/
theorem biasIdx_2 (r : Fin 8192) (d : Fin 768) :
    idx_main_v44 (idx_main_v45 (idx_main_v46 (idx_main_v47 (ix2 r d)))) = ix2 (2 : Fin 8) d :=
  funext fun a => Fin.ext (by
    have hd := d.isLt
    match a with
    | ⟨0, _⟩ => rfl
    | ⟨1, _⟩ => show d.val % 768 = d.val; omega)

/-- Gate column 2 spread over the features is the gate array at `(r, 2)`. -/
theorem gateIdx_2 (r : Fin 8192) (d : Fin 768) :
    idx_main_v49 (idx_main_v50 (idx_main_v51 (idx_main_v52 (ix2 r d)))) = ix2 r (2 : Fin 8) :=
  funext fun a => Fin.ext (by
    match a with
    | ⟨0, _⟩ => show r.val / 1 = r.val; omega
    | ⟨1, _⟩ => rfl)

/-- Expert 2's linear map of row `r` at feature `d`. -/
theorem expert_2 (r : Fin 8192) (d : Fin 768) :
    val_main_v43 (F := Ideal) x0 x2 (ix2 r d) = Cert.Moe.expert (Cert.Moe.rowOf x0 r) (Cert.Moe.ewOf x2) 2 d := by
  rw [val_main_v43_apply]
  exact Finset.sum_congr rfl fun k _ => by rw [val_main_v42_apply, val_main_v41_apply, weightIdx_2, lidx_v43]

/-- Expert 2's bias at feature `d`. -/
theorem bias_2 (r : Fin 8192) (d : Fin 768) : val_main_v47 (F := Ideal) x3 (ix2 r d) = Cert.Moe.ebOf x3 2 d := by
  rw [val_main_v47_apply, val_main_v46_apply, val_main_v45_apply, val_main_v44_apply, biasIdx_2]

/-- Gate 2 of row `r`. -/
theorem gateCol_2 (r : Fin 8192) (d : Fin 768) :
    val_main_v52 (F := Ideal) x0 x1 (ix2 r d) = Cert.Moe.gate (Cert.Moe.rowOf x0 r) (Cert.Moe.gwOf x1) 2 := by
  rw [val_main_v52_apply, val_main_v51_apply, val_main_v50_apply, val_main_v49_apply, gateIdx_2, gate_eq]

/-- Expert 2's term of the layer at `(r, d)`: `gate 2 · (expert 2 d + eb 2 d)`. -/
theorem term_2 (r : Fin 8192) (d : Fin 768) :
    val_main_v53 (F := Ideal) x0 x1 x2 x3 (ix2 r d)
      = Cert.Moe.gate (Cert.Moe.rowOf x0 r) (Cert.Moe.gwOf x1) 2
        * (Cert.Moe.expert (Cert.Moe.rowOf x0 r) (Cert.Moe.ewOf x2) 2 d + Cert.Moe.ebOf x3 2 d) := by
  rw [val_main_v53_apply, val_main_v48_apply, gateCol_2, expert_2, bias_2, Ideal.mulf_def, Ideal.addf_def]

/-! ## Expert 3 -/

/-- The left operand of expert 3's contraction at `(r, d)`, term `k`, is the input at `(r, k)`. -/
theorem lidx_v57 (r : Fin 8192) (d k : Fin 768) : lidx_main_v57 (ix2 r d) k = ix2 r k :=
  funext fun a => Fin.ext (by match a with | ⟨0, _⟩ => rfl | ⟨1, _⟩ => rfl)

/-- The right operand, read back through the reshape and the slice, is the stacked weight at `(3, k, d)`. -/
theorem weightIdx_3 (r : Fin 8192) (d k : Fin 768) :
    idx_main_v55 (idx_main_v56 (ridx_main_v57 (ix2 r d) k)) = ix3 (3 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 3's bias spread over the rows is the stacked bias at `(3, d)`. -/
theorem biasIdx_3 (r : Fin 8192) (d : Fin 768) :
    idx_main_v58 (idx_main_v59 (idx_main_v60 (idx_main_v61 (ix2 r d)))) = ix2 (3 : Fin 8) d :=
  funext fun a => Fin.ext (by
    have hd := d.isLt
    match a with
    | ⟨0, _⟩ => rfl
    | ⟨1, _⟩ => show d.val % 768 = d.val; omega)

/-- Gate column 3 spread over the features is the gate array at `(r, 3)`. -/
theorem gateIdx_3 (r : Fin 8192) (d : Fin 768) :
    idx_main_v63 (idx_main_v64 (idx_main_v65 (idx_main_v66 (ix2 r d)))) = ix2 r (3 : Fin 8) :=
  funext fun a => Fin.ext (by
    match a with
    | ⟨0, _⟩ => show r.val / 1 = r.val; omega
    | ⟨1, _⟩ => rfl)

/-- Expert 3's linear map of row `r` at feature `d`. -/
theorem expert_3 (r : Fin 8192) (d : Fin 768) :
    val_main_v57 (F := Ideal) x0 x2 (ix2 r d) = Cert.Moe.expert (Cert.Moe.rowOf x0 r) (Cert.Moe.ewOf x2) 3 d := by
  rw [val_main_v57_apply]
  exact Finset.sum_congr rfl fun k _ => by rw [val_main_v56_apply, val_main_v55_apply, weightIdx_3, lidx_v57]

/-- Expert 3's bias at feature `d`. -/
theorem bias_3 (r : Fin 8192) (d : Fin 768) : val_main_v61 (F := Ideal) x3 (ix2 r d) = Cert.Moe.ebOf x3 3 d := by
  rw [val_main_v61_apply, val_main_v60_apply, val_main_v59_apply, val_main_v58_apply, biasIdx_3]

/-- Gate 3 of row `r`. -/
theorem gateCol_3 (r : Fin 8192) (d : Fin 768) :
    val_main_v66 (F := Ideal) x0 x1 (ix2 r d) = Cert.Moe.gate (Cert.Moe.rowOf x0 r) (Cert.Moe.gwOf x1) 3 := by
  rw [val_main_v66_apply, val_main_v65_apply, val_main_v64_apply, val_main_v63_apply, gateIdx_3, gate_eq]

/-- Expert 3's term of the layer at `(r, d)`: `gate 3 · (expert 3 d + eb 3 d)`. -/
theorem term_3 (r : Fin 8192) (d : Fin 768) :
    val_main_v67 (F := Ideal) x0 x1 x2 x3 (ix2 r d)
      = Cert.Moe.gate (Cert.Moe.rowOf x0 r) (Cert.Moe.gwOf x1) 3
        * (Cert.Moe.expert (Cert.Moe.rowOf x0 r) (Cert.Moe.ewOf x2) 3 d + Cert.Moe.ebOf x3 3 d) := by
  rw [val_main_v67_apply, val_main_v62_apply, gateCol_3, expert_3, bias_3, Ideal.mulf_def, Ideal.addf_def]

/-! ## Expert 4 -/

/-- The left operand of expert 4's contraction at `(r, d)`, term `k`, is the input at `(r, k)`. -/
theorem lidx_v71 (r : Fin 8192) (d k : Fin 768) : lidx_main_v71 (ix2 r d) k = ix2 r k :=
  funext fun a => Fin.ext (by match a with | ⟨0, _⟩ => rfl | ⟨1, _⟩ => rfl)

/-- The right operand, read back through the reshape and the slice, is the stacked weight at `(4, k, d)`. -/
theorem weightIdx_4 (r : Fin 8192) (d k : Fin 768) :
    idx_main_v69 (idx_main_v70 (ridx_main_v71 (ix2 r d) k)) = ix3 (4 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 4's bias spread over the rows is the stacked bias at `(4, d)`. -/
theorem biasIdx_4 (r : Fin 8192) (d : Fin 768) :
    idx_main_v72 (idx_main_v73 (idx_main_v74 (idx_main_v75 (ix2 r d)))) = ix2 (4 : Fin 8) d :=
  funext fun a => Fin.ext (by
    have hd := d.isLt
    match a with
    | ⟨0, _⟩ => rfl
    | ⟨1, _⟩ => show d.val % 768 = d.val; omega)

/-- Gate column 4 spread over the features is the gate array at `(r, 4)`. -/
theorem gateIdx_4 (r : Fin 8192) (d : Fin 768) :
    idx_main_v77 (idx_main_v78 (idx_main_v79 (idx_main_v80 (ix2 r d)))) = ix2 r (4 : Fin 8) :=
  funext fun a => Fin.ext (by
    match a with
    | ⟨0, _⟩ => show r.val / 1 = r.val; omega
    | ⟨1, _⟩ => rfl)

/-- Expert 4's linear map of row `r` at feature `d`. -/
theorem expert_4 (r : Fin 8192) (d : Fin 768) :
    val_main_v71 (F := Ideal) x0 x2 (ix2 r d) = Cert.Moe.expert (Cert.Moe.rowOf x0 r) (Cert.Moe.ewOf x2) 4 d := by
  rw [val_main_v71_apply]
  exact Finset.sum_congr rfl fun k _ => by rw [val_main_v70_apply, val_main_v69_apply, weightIdx_4, lidx_v71]

/-- Expert 4's bias at feature `d`. -/
theorem bias_4 (r : Fin 8192) (d : Fin 768) : val_main_v75 (F := Ideal) x3 (ix2 r d) = Cert.Moe.ebOf x3 4 d := by
  rw [val_main_v75_apply, val_main_v74_apply, val_main_v73_apply, val_main_v72_apply, biasIdx_4]

/-- Gate 4 of row `r`. -/
theorem gateCol_4 (r : Fin 8192) (d : Fin 768) :
    val_main_v80 (F := Ideal) x0 x1 (ix2 r d) = Cert.Moe.gate (Cert.Moe.rowOf x0 r) (Cert.Moe.gwOf x1) 4 := by
  rw [val_main_v80_apply, val_main_v79_apply, val_main_v78_apply, val_main_v77_apply, gateIdx_4, gate_eq]

/-- Expert 4's term of the layer at `(r, d)`: `gate 4 · (expert 4 d + eb 4 d)`. -/
theorem term_4 (r : Fin 8192) (d : Fin 768) :
    val_main_v81 (F := Ideal) x0 x1 x2 x3 (ix2 r d)
      = Cert.Moe.gate (Cert.Moe.rowOf x0 r) (Cert.Moe.gwOf x1) 4
        * (Cert.Moe.expert (Cert.Moe.rowOf x0 r) (Cert.Moe.ewOf x2) 4 d + Cert.Moe.ebOf x3 4 d) := by
  rw [val_main_v81_apply, val_main_v76_apply, gateCol_4, expert_4, bias_4, Ideal.mulf_def, Ideal.addf_def]

/-! ## Expert 5 -/

/-- The left operand of expert 5's contraction at `(r, d)`, term `k`, is the input at `(r, k)`. -/
theorem lidx_v85 (r : Fin 8192) (d k : Fin 768) : lidx_main_v85 (ix2 r d) k = ix2 r k :=
  funext fun a => Fin.ext (by match a with | ⟨0, _⟩ => rfl | ⟨1, _⟩ => rfl)

/-- The right operand, read back through the reshape and the slice, is the stacked weight at `(5, k, d)`. -/
theorem weightIdx_5 (r : Fin 8192) (d k : Fin 768) :
    idx_main_v83 (idx_main_v84 (ridx_main_v85 (ix2 r d) k)) = ix3 (5 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 5's bias spread over the rows is the stacked bias at `(5, d)`. -/
theorem biasIdx_5 (r : Fin 8192) (d : Fin 768) :
    idx_main_v86 (idx_main_v87 (idx_main_v88 (idx_main_v89 (ix2 r d)))) = ix2 (5 : Fin 8) d :=
  funext fun a => Fin.ext (by
    have hd := d.isLt
    match a with
    | ⟨0, _⟩ => rfl
    | ⟨1, _⟩ => show d.val % 768 = d.val; omega)

/-- Gate column 5 spread over the features is the gate array at `(r, 5)`. -/
theorem gateIdx_5 (r : Fin 8192) (d : Fin 768) :
    idx_main_v91 (idx_main_v92 (idx_main_v93 (idx_main_v94 (ix2 r d)))) = ix2 r (5 : Fin 8) :=
  funext fun a => Fin.ext (by
    match a with
    | ⟨0, _⟩ => show r.val / 1 = r.val; omega
    | ⟨1, _⟩ => rfl)

/-- Expert 5's linear map of row `r` at feature `d`. -/
theorem expert_5 (r : Fin 8192) (d : Fin 768) :
    val_main_v85 (F := Ideal) x0 x2 (ix2 r d) = Cert.Moe.expert (Cert.Moe.rowOf x0 r) (Cert.Moe.ewOf x2) 5 d := by
  rw [val_main_v85_apply]
  exact Finset.sum_congr rfl fun k _ => by rw [val_main_v84_apply, val_main_v83_apply, weightIdx_5, lidx_v85]

/-- Expert 5's bias at feature `d`. -/
theorem bias_5 (r : Fin 8192) (d : Fin 768) : val_main_v89 (F := Ideal) x3 (ix2 r d) = Cert.Moe.ebOf x3 5 d := by
  rw [val_main_v89_apply, val_main_v88_apply, val_main_v87_apply, val_main_v86_apply, biasIdx_5]

/-- Gate 5 of row `r`. -/
theorem gateCol_5 (r : Fin 8192) (d : Fin 768) :
    val_main_v94 (F := Ideal) x0 x1 (ix2 r d) = Cert.Moe.gate (Cert.Moe.rowOf x0 r) (Cert.Moe.gwOf x1) 5 := by
  rw [val_main_v94_apply, val_main_v93_apply, val_main_v92_apply, val_main_v91_apply, gateIdx_5, gate_eq]

/-- Expert 5's term of the layer at `(r, d)`: `gate 5 · (expert 5 d + eb 5 d)`. -/
theorem term_5 (r : Fin 8192) (d : Fin 768) :
    val_main_v95 (F := Ideal) x0 x1 x2 x3 (ix2 r d)
      = Cert.Moe.gate (Cert.Moe.rowOf x0 r) (Cert.Moe.gwOf x1) 5
        * (Cert.Moe.expert (Cert.Moe.rowOf x0 r) (Cert.Moe.ewOf x2) 5 d + Cert.Moe.ebOf x3 5 d) := by
  rw [val_main_v95_apply, val_main_v90_apply, gateCol_5, expert_5, bias_5, Ideal.mulf_def, Ideal.addf_def]

/-! ## Expert 6 -/

/-- The left operand of expert 6's contraction at `(r, d)`, term `k`, is the input at `(r, k)`. -/
theorem lidx_v99 (r : Fin 8192) (d k : Fin 768) : lidx_main_v99 (ix2 r d) k = ix2 r k :=
  funext fun a => Fin.ext (by match a with | ⟨0, _⟩ => rfl | ⟨1, _⟩ => rfl)

/-- The right operand, read back through the reshape and the slice, is the stacked weight at `(6, k, d)`. -/
theorem weightIdx_6 (r : Fin 8192) (d k : Fin 768) :
    idx_main_v97 (idx_main_v98 (ridx_main_v99 (ix2 r d) k)) = ix3 (6 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 6's bias spread over the rows is the stacked bias at `(6, d)`. -/
theorem biasIdx_6 (r : Fin 8192) (d : Fin 768) :
    idx_main_v100 (idx_main_v101 (idx_main_v102 (idx_main_v103 (ix2 r d)))) = ix2 (6 : Fin 8) d :=
  funext fun a => Fin.ext (by
    have hd := d.isLt
    match a with
    | ⟨0, _⟩ => rfl
    | ⟨1, _⟩ => show d.val % 768 = d.val; omega)

/-- Gate column 6 spread over the features is the gate array at `(r, 6)`. -/
theorem gateIdx_6 (r : Fin 8192) (d : Fin 768) :
    idx_main_v105 (idx_main_v106 (idx_main_v107 (idx_main_v108 (ix2 r d)))) = ix2 r (6 : Fin 8) :=
  funext fun a => Fin.ext (by
    match a with
    | ⟨0, _⟩ => show r.val / 1 = r.val; omega
    | ⟨1, _⟩ => rfl)

/-- Expert 6's linear map of row `r` at feature `d`. -/
theorem expert_6 (r : Fin 8192) (d : Fin 768) :
    val_main_v99 (F := Ideal) x0 x2 (ix2 r d) = Cert.Moe.expert (Cert.Moe.rowOf x0 r) (Cert.Moe.ewOf x2) 6 d := by
  rw [val_main_v99_apply]
  exact Finset.sum_congr rfl fun k _ => by rw [val_main_v98_apply, val_main_v97_apply, weightIdx_6, lidx_v99]

/-- Expert 6's bias at feature `d`. -/
theorem bias_6 (r : Fin 8192) (d : Fin 768) : val_main_v103 (F := Ideal) x3 (ix2 r d) = Cert.Moe.ebOf x3 6 d := by
  rw [val_main_v103_apply, val_main_v102_apply, val_main_v101_apply, val_main_v100_apply, biasIdx_6]

/-- Gate 6 of row `r`. -/
theorem gateCol_6 (r : Fin 8192) (d : Fin 768) :
    val_main_v108 (F := Ideal) x0 x1 (ix2 r d) = Cert.Moe.gate (Cert.Moe.rowOf x0 r) (Cert.Moe.gwOf x1) 6 := by
  rw [val_main_v108_apply, val_main_v107_apply, val_main_v106_apply, val_main_v105_apply, gateIdx_6, gate_eq]

/-- Expert 6's term of the layer at `(r, d)`: `gate 6 · (expert 6 d + eb 6 d)`. -/
theorem term_6 (r : Fin 8192) (d : Fin 768) :
    val_main_v109 (F := Ideal) x0 x1 x2 x3 (ix2 r d)
      = Cert.Moe.gate (Cert.Moe.rowOf x0 r) (Cert.Moe.gwOf x1) 6
        * (Cert.Moe.expert (Cert.Moe.rowOf x0 r) (Cert.Moe.ewOf x2) 6 d + Cert.Moe.ebOf x3 6 d) := by
  rw [val_main_v109_apply, val_main_v104_apply, gateCol_6, expert_6, bias_6, Ideal.mulf_def, Ideal.addf_def]

/-! ## Expert 7 -/

/-- The left operand of expert 7's contraction at `(r, d)`, term `k`, is the input at `(r, k)`. -/
theorem lidx_v113 (r : Fin 8192) (d k : Fin 768) : lidx_main_v113 (ix2 r d) k = ix2 r k :=
  funext fun a => Fin.ext (by match a with | ⟨0, _⟩ => rfl | ⟨1, _⟩ => rfl)

/-- The right operand, read back through the reshape and the slice, is the stacked weight at `(7, k, d)`. -/
theorem weightIdx_7 (r : Fin 8192) (d k : Fin 768) :
    idx_main_v111 (idx_main_v112 (ridx_main_v113 (ix2 r d) k)) = ix3 (7 : Fin 8) k d :=
  funext fun a => Fin.ext (by
    have hk := k.isLt; have hd := d.isLt
    match a with
    | ⟨0, _⟩ => rfl
    | ⟨1, _⟩ => show (k.val * 768 + d.val) / 768 % 768 = k.val; omega
    | ⟨2, _⟩ => show (k.val * 768 + d.val) % 768 = d.val; omega)

/-- Expert 7's bias spread over the rows is the stacked bias at `(7, d)`. -/
theorem biasIdx_7 (r : Fin 8192) (d : Fin 768) :
    idx_main_v114 (idx_main_v115 (idx_main_v116 (idx_main_v117 (ix2 r d)))) = ix2 (7 : Fin 8) d :=
  funext fun a => Fin.ext (by
    have hd := d.isLt
    match a with
    | ⟨0, _⟩ => rfl
    | ⟨1, _⟩ => show d.val % 768 = d.val; omega)

/-- Gate column 7 spread over the features is the gate array at `(r, 7)`. -/
theorem gateIdx_7 (r : Fin 8192) (d : Fin 768) :
    idx_main_v119 (idx_main_v120 (idx_main_v121 (idx_main_v122 (ix2 r d)))) = ix2 r (7 : Fin 8) :=
  funext fun a => Fin.ext (by
    match a with
    | ⟨0, _⟩ => show r.val / 1 = r.val; omega
    | ⟨1, _⟩ => rfl)

/-- Expert 7's linear map of row `r` at feature `d`. -/
theorem expert_7 (r : Fin 8192) (d : Fin 768) :
    val_main_v113 (F := Ideal) x0 x2 (ix2 r d) = Cert.Moe.expert (Cert.Moe.rowOf x0 r) (Cert.Moe.ewOf x2) 7 d := by
  rw [val_main_v113_apply]
  exact Finset.sum_congr rfl fun k _ => by rw [val_main_v112_apply, val_main_v111_apply, weightIdx_7, lidx_v113]

/-- Expert 7's bias at feature `d`. -/
theorem bias_7 (r : Fin 8192) (d : Fin 768) : val_main_v117 (F := Ideal) x3 (ix2 r d) = Cert.Moe.ebOf x3 7 d := by
  rw [val_main_v117_apply, val_main_v116_apply, val_main_v115_apply, val_main_v114_apply, biasIdx_7]

/-- Gate 7 of row `r`. -/
theorem gateCol_7 (r : Fin 8192) (d : Fin 768) :
    val_main_v122 (F := Ideal) x0 x1 (ix2 r d) = Cert.Moe.gate (Cert.Moe.rowOf x0 r) (Cert.Moe.gwOf x1) 7 := by
  rw [val_main_v122_apply, val_main_v121_apply, val_main_v120_apply, val_main_v119_apply, gateIdx_7, gate_eq]

/-- Expert 7's term of the layer at `(r, d)`: `gate 7 · (expert 7 d + eb 7 d)`. -/
theorem term_7 (r : Fin 8192) (d : Fin 768) :
    val_main_v123 (F := Ideal) x0 x1 x2 x3 (ix2 r d)
      = Cert.Moe.gate (Cert.Moe.rowOf x0 r) (Cert.Moe.gwOf x1) 7
        * (Cert.Moe.expert (Cert.Moe.rowOf x0 r) (Cert.Moe.ewOf x2) 7 d + Cert.Moe.ebOf x3 7 d) := by
  rw [val_main_v123_apply, val_main_v118_apply, gateCol_7, expert_7, bias_7, Ideal.mulf_def, Ideal.addf_def]

/-! ## The layer -/

/-- THE REFERENCE IS THE LAYER.  At entry `(r, d)` the running result is the zero word plus the eight experts' terms,
    added one after the other in expert order; `0 + t₀ = t₀`, and the sum over the eight experts written out is the
    same left-nested sum.  No entry needs to be finite. -/
theorem ref_is_layer (x0 : (⟨S8192x768, .f32⟩ : BufTy).Contents (Elt Ideal)) (x1 : (⟨S768x8, .f32⟩ : BufTy).Contents (Elt Ideal))
    (x2 : (⟨S8x768x768, .f32⟩ : BufTy).Contents (Elt Ideal)) (x3 : (⟨S8x768, .f32⟩ : BufTy).Contents (Elt Ideal)) :
    val_main_v124 (F := Ideal) x0 x1 x2 x3 = Cert.Moe.layer x0 x1 x2 x3 := by
  funext i
  obtain ⟨r, d, rfl⟩ : ∃ (r : Fin 8192) (d : Fin 768), i = ix2 r d := ⟨i 0, i 1, eq_ix2 i⟩
  rw [val_main_v124_apply, val_main_v110_apply, val_main_v96_apply, val_main_v82_apply, val_main_v68_apply,
    val_main_v54_apply, val_main_v40_apply, val_main_v26_apply, val_main_v12_apply, val_main_cst_2_apply,
    term_0, term_1, term_2, term_3, term_4, term_5, term_6, term_7]
  simp only [Ideal.addf_def, Ideal.ofBits_def, Ideal.ofBits_zero_f32, zero_add]
  show _ = Cert.Moe.moe (Cert.Moe.rowOf x0 r) (Cert.Moe.gwOf x1) (Cert.Moe.ewOf x2) (Cert.Moe.ebOf x3) d
  unfold Cert.Moe.moe
  rw [Fin.sum_univ_eight]

end Cert.ReferenceIdeal.MoeRef
end
-- ==== Proof.MoeFinite.lean ====
/-
  Finite inputs are real inputs.  The precondition of the layer is the conjunction, over its four arrays, of
  "every entry has absolute value below +∞": each entry's absolute value `max a (-a)` is compared (strictly) with the
  word `0x7F800000`, which denotes `+∞`; the comparison bits of one array are folded by `and` from the true bit over
  all axes; the four folds are joined by `and`; and the claim is that the one bit of the result is 1.  Read backwards:
  a conjunction that is 1 has both parts 1; a fold of `and` over all axes that is 1 met a 1 at every index; a
  comparison bit that is 1 says `max a (-a) < ⊤`; and an extended real `a` with `max a (-a) < ⊤` is neither `⊤`
  (then `max a (-a) = ⊤`) nor `⊥` (then `-a = ⊤`): it is a real number.
-/
import proofs.«101478_g6734508720218_cont_9to1c4b_726_15_alg».proof.Pre_finite_inputs
import proofs.«101478_g6734508720218_cont_9to1c4b_726_15_alg».proof.Proof.MoeSpec
import Idealize.ShloMosaic.Lib.ReduceAll

noncomputable section

namespace Cert.Moe.Finite

open Idealize.ShloMosaic

/-- The word every absolute value is compared with denotes `+∞`. -/
theorem posInf_eq : Ideal.ofBits .f32 0x7F800000#32 = (⊤ : EReal) := by simp [Ideal.ofBits, Ideal.ieee]

/-- An extended real whose absolute value `max x (-x)` is below `+∞` is a real number: `⊤` has `max ⊤ _ = ⊤`, and
    `⊥` has `-⊥ = ⊤`. -/
theorem isReal_of_abs_lt_top (x : EReal) (h : max x (-x) < ⊤) : IsReal x := by
  rw [isReal_iff]
  constructor
  · rintro rfl
    simp at h
  · rintro rfl
    simp at h

/-- The comparison bit "`|x|` is strictly below the `+∞` word" being 1 makes `x` a real number. -/
theorem isReal_of_cmp_bit (x : EReal) (h : Ideal.cmp .olt (max x (-x)) (Ideal.ofBits .f32 0x7F800000#32) = 1#1) :
    IsReal x := by
  rw [posInf_eq] at h
  refine isReal_of_abs_lt_top x ?_
  by_contra hlt
  simp [Ideal.cmp, hlt] at h

/-- ONE ARRAY.  Over any shape: if the array of comparison bits "`|a i|` below `inf i`", with `inf` the `+∞` word at
    every index, is 1 at every index, then every entry of `a` is a real number. -/
theorem isReal_of_all_bits {s : Shape} (a inf : FVec Ideal s .f32) (hinf : ∀ i, inf i = Ideal.ofBits .f32 0x7F800000#32)
    (hbits : ∀ i, cmpf .olt (Host.absf a) inf i = 1#1) (i : s.Idx) : IsReal (a i) := by
  have h := hbits i
  rw [ValueIdx.cmpf_apply, hinf i] at h
  exact isReal_of_cmp_bit (a i) h

/-- The rank-0 result has one index. -/
instance : Subsingleton Cert.Pre_finite_inputs.S_.Idx := ⟨fun a b => funext fun d => d.elim0⟩

/-- THE PRECONDITION READ BACK.  If the printed predicate "all four arrays have every absolute value below `+∞`" holds
    (its one result bit is 1), then every entry of each of the four arrays is a real number: the result bit is the
    `and` of four folds, each fold of `and` over all axes gives its bit at every index, and each bit is the comparison
    of one entry's absolute value with the `+∞` word. -/
theorem real_of_pre [Cert.Pre_finite_inputs.Facts] (a0 : FVec Ideal Cert.Pre_finite_inputs.S8192x768 .f32)
    (a1 : FVec Ideal Cert.Pre_finite_inputs.S768x8 .f32) (a2 : FVec Ideal Cert.Pre_finite_inputs.S8x768x768 .f32)
    (a3 : FVec Ideal Cert.Pre_finite_inputs.S8x768 .f32)
    (h : Cert.Pre_finite_inputs.fn (F := Ideal) a0 a1 a2 a3 = fun _ => 1#1) :
    (∀ i, Cert.Moe.IsReal (a0 i)) ∧ (∀ i, Cert.Moe.IsReal (a1 i)) ∧ (∀ i, Cert.Moe.IsReal (a2 i)) ∧ (∀ i, Cert.Moe.IsReal (a3 i)) := by
  have h0 := congrFun h ValueIdx.ix0
  dsimp only [Cert.Pre_finite_inputs.fn, Cert.Pre_finite_inputs.fn_part1] at h0
  have e : ∀ (x y : IVec Cert.Pre_finite_inputs.S_ 1) (j : Cert.Pre_finite_inputs.S_.Idx),
      andi x y j = IntOp.andi (x j) (y j) := fun _ _ _ => rfl
  rw [e, e, e, IntOp.andi_eq_one, IntOp.andi_eq_one, IntOp.andi_eq_one] at h0
  obtain ⟨⟨⟨h0, h1⟩, h2⟩, h3⟩ := h0
  exact ⟨isReal_of_all_bits a0 _ (fun _ => rfl) (Host.reduce_andi_all _ _ _ _ _ h0),
    isReal_of_all_bits a1 _ (fun _ => rfl) (Host.reduce_andi_all _ _ _ _ _ h1),
    isReal_of_all_bits a2 _ (fun _ => rfl) (Host.reduce_andi_all _ _ _ _ _ h2),
    isReal_of_all_bits a3 _ (fun _ => rfl) (Host.reduce_andi_all _ _ _ _ _ h3)⟩

end Cert.Moe.Finite

end
-- ==== Proof.lean ====
/-
  A dense mixture-of-experts layer: 8192 tokens of 768 features, a softmax gate over 8 experts, every expert (a linear
  map with bias) applied to every token, the outputs mixed by the gates.

  The reference computes, token by token, `∑ₑ gate e · (x · W_e + b_e)`.  The kernel walks a grid of 4 token blocks by 8
  expert steps; at the first step of a block it computes the block's gates, keeps them in a scratch and seeds the output
  block with gates · biases, and at every step `e` it adds `gate e · (x · W_e)`; the block is written back after the last
  step.  So the kernel's result is `∑ₑ gate e · b_e` plus the eight terms `gate e · (x · W_e)` added in expert order, and
  the two results agree once each gate is distributed over its expert's output plus bias.  On the extended reals that
  law needs real factors; the precondition makes every input entry a real number, and then the gates are real too: a
  logit is a finite sum of products of reals, the exponential of a real is a positive real, the softmax denominator a
  positive real.

  The kernel's run and the reference's run come from the generated frame run and the generated reference run; what is
  read off them by hand is the value each leaves in its result array, and the law that joins the two.
-/
import proofs.«101478_g6734508720218_cont_9to1c4b_726_15_alg».proof.Defs
import proofs.«101478_g6734508720218_cont_9to1c4b_726_15_alg».proof.Proof.Gen.Kernel
import proofs.«101478_g6734508720218_cont_9to1c4b_726_15_alg».proof.Proof.Gen.Kernel.Frame
import proofs.«101478_g6734508720218_cont_9to1c4b_726_15_alg».proof.Proof.Gen.KernelIdeal
import proofs.«101478_g6734508720218_cont_9to1c4b_726_15_alg».proof.Proof.Gen.KernelIdeal.Frame
import proofs.«101478_g6734508720218_cont_9to1c4b_726_15_alg».proof.Proof.Gen.ReferenceIdeal
import proofs.«101478_g6734508720218_cont_9to1c4b_726_15_alg».proof.Proof.Gen.Pre_finite_inputs
import proofs.«101478_g6734508720218_cont_9to1c4b_726_15_alg».proof.Proof.Gen.KernelIdeal.Value
import proofs.«101478_g6734508720218_cont_9to1c4b_726_15_alg».proof.Proof.Gen.ReferenceIdeal.Run
import proofs.«101478_g6734508720218_cont_9to1c4b_726_15_alg».proof.Proof.Gen.ReferenceIdeal.Read
import proofs.«101478_g6734508720218_cont_9to1c4b_726_15_alg».proof.Proof.MoeRun
import proofs.«101478_g6734508720218_cont_9to1c4b_726_15_alg».proof.Proof.MoeReference
import proofs.«101478_g6734508720218_cont_9to1c4b_726_15_alg».proof.Proof.MoeFinite
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the extended reals the kernel's result array ends at the accumulated arrangement of the layer after all eight
    experts and the reference's at the layer itself, of arguments that agree; the precondition makes the arguments real,
    and for real arguments the two arrangements are one array. -/
theorem algebraic : Cert.algebraic_KernelIdeal_ReferenceIdeal := by
  intro m ρ m' ρ' hpre hagree
  refine ⟨fun c => Cert.KernelIdeal.Moe.result m c, Cert.KernelIdeal.Moe.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Moe.Finite.real_of_pre _ _ _ _ (hpre c)
  rw [Cert.ReferenceIdeal.Read.val_main_v124_eq, Cert.ReferenceIdeal.MoeRef.ref_is_layer, (hagree c).1, (hagree c).2.1,
    (hagree c).2.2.1, (hagree c).2.2.2]
  exact (Cert.Moe.layerAcc_eight_eq_layer _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
